-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S3x128x128 : Shape := ⟨3, ![3, 128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn {F : FTy → Type} [FloatOps F] (main_arg0 : FVec F S8192x128 .f32) (main_arg1 : FVec F S8192x8192 .f32) (main_arg2 : FVec F S3x128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S3x128x128 : Shape := ⟨3, ![3, 128, 128]⟩
abbrev S1024x2048 : Shape := ⟨2, ![1024, 2048]⟩
abbrev S2048x128 : Shape := ⟨2, ![2048, 128]⟩
abbrev S1024x128 : Shape := ⟨2, ![1024, 128]⟩
abbrev S1x128x128 : Shape := ⟨3, ![1, 128, 128]⟩
abbrev S128x128 : Shape := ⟨2, ![128, 128]⟩

abbrev nBuf : Space → Nat
  | .hbm => 13
  | .vmem => 25
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x128x128, .f32⟩
  | .hbm, ⟨3, _⟩ => ⟨S8192x128, .f32⟩
  | .hbm, ⟨4, _⟩ => ⟨S8192x128, .f32⟩
  | .hbm, ⟨5, _⟩ => ⟨S3x128x128, .f32⟩
  | .hbm, ⟨6, _⟩ => ⟨S1x128x128, .f32⟩
  | .hbm, ⟨7, _⟩ => ⟨S128x128, .f32⟩
  | .hbm, ⟨8, _⟩ => ⟨S1x128x128, .f32⟩
  | .hbm, ⟨9, _⟩ => ⟨S128x128, .f32⟩
  | .hbm, ⟨10, _⟩ => ⟨S1x128x128, .f32⟩
  | .hbm, ⟨11, _⟩ => ⟨S128x128, .f32⟩
  | .hbm, ⟨12, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x2048, .f32⟩
  | .local _ .vmem, ⟨8, _⟩ => ⟨S1024x2048, .f32⟩
  | .local _ .vmem, ⟨9, _⟩ => ⟨S2048x128, .f32⟩
  | .local _ .vmem, ⟨10, _⟩ => ⟨S2048x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S1024x128, .f32⟩
  | .local _ .vmem, ⟨24, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S3x128x128_S3x128x128_0_2_1 : S3x128x128.Transposes [0, 2, 1] S3x128x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S8192x128.size a
  hwx2_6 : ∀ i : grid2.Coords, EltTy.bits .f32 = 32 ∨ (Rect.block (s := S8192x128) S1024x128.size (cc2_transform_6 i) (hinb2_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S3x128x128 : Shape := ⟨3, ![3, 128, 128]⟩
abbrev S1x128x128 : Shape := ⟨3, ![1, 128, 128]⟩
abbrev S128x128 : Shape := ⟨2, ![128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x128x128, .f32⟩
  | .hbm, ⟨3, _⟩ => ⟨S8192x128, .f32⟩
  | .hbm, ⟨4, _⟩ => ⟨S1x128x128, .f32⟩
  | .hbm, ⟨5, _⟩ => ⟨S128x128, .f32⟩
  | .hbm, ⟨6, _⟩ => ⟨S128x128, .f32⟩
  | .hbm, ⟨7, _⟩ => ⟨S8192x128, .f32⟩
  | .hbm, ⟨8, _⟩ => ⟨S1x128x128, .f32⟩
  | .hbm, ⟨9, _⟩ => ⟨S128x128, .f32⟩
  | .hbm, ⟨10, _⟩ => ⟨S128x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S1x128x128, .f32⟩
  | .hbm, ⟨19, _⟩ => ⟨S128x128, .f32⟩
  | .hbm, ⟨20, _⟩ => ⟨S128x128, .f32⟩
  | .hbm, ⟨21, _⟩ => ⟨S8192x128, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128x128_S1x128x128_1_0_0 : S3x128x128.Slices ![1, 0, 0] S1x128x128
  bcast_S_S8192x128 : S_.BroadcastsInDim S8192x128 (![] : Fin 0 → Fin S8192x128.rank)
  slices_S3x128x128_S1x128x128_2_0_0 : S3x128x128.Slices ![2, 0, 0] S1x128x128
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Kernel.Matmul0Body.lean ====
/-
  The first matrix-product kernel (the pallas_call that forms L·x), one grid point at a time.

  The grid is 8 × 4: point (i, k) multiplies the (1024 × 2048) block (i, k) of the left operand with the
  (2048 × 128) block k of the right operand and adds the product to a (1024 × 128) accumulator held in a
  scratch buffer.  The accumulator is zeroed when k = 0 and copied to the output block when k = 3.

  Three control cases are met on the grid; for each, what the body leaves in the accumulator and in the
  output's staging buffer is stated as a pure function of what it found:
    k = 0      : accumulator ← 0 + blockL · blockR            (output buffer untouched)
    k = 1, 2   : accumulator ← accumulator + blockL · blockR  (output buffer untouched)
    k = 3      : accumulator ← accumulator + blockL · blockR, output ← the new accumulator.
-/
import proofs.«108918_j70763881168941_1_alg».proof.Proof.Gen.Kernel.Launch
import proofs.«108918_j70763881168941_1_alg».proof.Proof.Gen.Kernel.Skeleton
import proofs.«108918_j70763881168941_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "k = 0": the accumulator is reset at this point. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- "k = 3": the accumulator is copied out at this point. -/
abbrev cond0_2 (i : grid0.Coords) : Prop := k0_cond2 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- The offset of every access of this body: the origin. -/
theorem hzAcc0 : (![0, 0] : Fin 2 → ℕ) = fun _ => 0 := by
  funext a; fin_cases a <;> rfl

/-- A store through the whole rectangle of a shape, last in a list of stores, covers the shape. -/
theorem cover_whole0 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

set_option maxHeartbeats 1000000 in
/-- k = 0: the accumulator is zeroed, then gains the blocks' product; the output's buffer is handed back untouched. -/
theorem run0_A (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : cond0_1 i) (hc2 : ¬cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 k0_pay1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

set_option maxHeartbeats 1000000 in
/-- k = 1, 2: the accumulator gains the blocks' product; the output's buffer is handed back untouched. -/
theorem run0_B (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond0_1 i) (hc2 : ¬cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

set_option maxHeartbeats 1000000 in
/-- k = 3: the accumulator gains the blocks' product and is copied whole into the output's buffer. -/
theorem run0_C (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond0_1 i) (hc2 : cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_words
    rw [View.read_writes_eq_canon _ _ _ (cover_whole0 hzAcc0 _ _ _)]
    first
      | rw [View.canon_unit_zero hzAcc0]
      | rw [View.canon_cons_unit_zero hzAcc0]
    simp only [View.readAt_eq_ld, View.ld_unit_zero (S := S1024x2048) hzAcc0, View.ld_unit_zero (S := S2048x128) hzAcc0,
      View.ld_unit_zero (S := S1024x128) hzAcc0, View.readCov_unit_zero (S := S1024x128) _ hzAcc0]
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

end Cert.Kernel.Hand

end
-- ==== Proof.Kernel.Matmul0Data.lean ====
/-
  The first matrix-product kernel over its whole grid: what its accumulator holds after every grid point, the
  invariant that carries the accumulator from one point to the next, and the per-point obligation.

  Points are numbered n = 4·i + k.  After point n the accumulator holds the partial product over the
  column blocks 0 … k of block row i:
      acc(n) = (if k = 0 then 0 else acc(n − 1)) + blockL(n) · blockR(n).
  The output's staging buffer is written only at k = 3 (with acc(n)) and is left as found elsewhere.
-/
import proofs.«108918_j70763881168941_1_alg».proof.Proof.Kernel.Matmul0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's (1024 × 2048) block and the right operand's (2048 × 128) block at point `t`. -/
abbrev lblk0 (c : Dev nD) (t : Fin cfg0.N) : Vec F S1024x2048 .f32 := iblk0 V c 0 t
abbrev rblk0 (c : Dev nD) (t : Fin cfg0.N) : Vec F S2048x128 .f32 := iblk0 V c 1 t

/-! ## The accumulator after each point -/

/-- The accumulator after point `n`: restarted from zero where k = 0, else grown from the point before. -/
def accAt0 (c : Dev nD) : (n : ℕ) → n < cfg0.N → Vec F S1024x128 .f32
  | 0, hn => k0_pay2 (lblk0 V c ⟨0, hn⟩) (rblk0 V c ⟨0, hn⟩) k0_pay1
  | n + 1, hn =>
    if (n + 1) % 4 = 0 then k0_pay2 (lblk0 V c ⟨n + 1, hn⟩) (rblk0 V c ⟨n + 1, hn⟩) k0_pay1
    else k0_pay2 (lblk0 V c ⟨n + 1, hn⟩) (rblk0 V c ⟨n + 1, hn⟩) (accAt0 c n (Nat.lt_of_succ_lt hn))

theorem accAt0_reset (c : Dev nD) (t : Fin cfg0.N) (h : t.val % 4 = 0) :
    accAt0 V c t.val t.isLt = k0_pay2 (lblk0 V c t) (rblk0 V c t) k0_pay1 := by
  obtain ⟨n, hn⟩ := t
  cases n with
  | zero => rfl
  | succ n => exact if_pos h

theorem accAt0_step (c : Dev nD) (t : Fin cfg0.N) (h : ¬t.val % 4 = 0) :
    accAt0 V c t.val t.isLt
      = k0_pay2 (lblk0 V c t) (rblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The accumulator's scratch buffer as the body is handed it. -/
abbrev scM0 : Memref sig .tc .vmem S1024x128 .f32 := Memref.whole cc0_scratch0

/-- Before the first point every scoped buffer outside the pipeline's staging holds anything; afterwards the
    accumulator holds `accAt0` of the point before, the other such buffers anything.  The generator register rides along. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The class invariant with the accumulator's buffer split off. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [scM0, owns_whole]; rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  by_cases h0 : t.val % 4 = 0
  · by_cases h1 : t.val % 4 = 3
    · exfalso; omega
    · -- k = 0: the accumulator restarts; the output's buffer is idle here and keeps what it held
      have hc1 : cond0_1 (grid0.coords t) := (hcond0_1 t).mpr h0
      have hc2 : ¬cond0_2 (grid0.coords t) := fun h => h1 ((hcond0_2 t).mp h)
      rw [Dat.leavesExact_idle (dat0 V c) 2 t (idleAt0_2 t hc2) (noFlush0_2 t hc2)]
      rw [accAt0_reset V c t h0]
      by_cases hz : t.val = 0
      · -- the first point: the accumulator's buffer holds anything
        rw [Phi0_castSucc V c t, PhiS0_zero V c _ _ hz, PhiA0_split]
        iintro ⟨⟨⟨⟨%ds, HS⟩, Hr⟩, Hg⟩, Ho, ⟨%d0, H0⟩, ⟨%d1, H1⟩, ⟨%d2, H2⟩⟩
        iapply (run0_A c (grid0.coords t) _ _ _ _ _ _ _ _ hc1 hc2 (lblk0 V c t) (rblk0 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · -- the first point of a later block row: the accumulator's buffer holds the row before's last partial product, which the reset discards
        rw [Phi0_castSucc V c t, PhiS0_pos V c _ _ hz]
        iintro ⟨⟨HS, Hr, Hg⟩, Ho, ⟨%d0, H0⟩, ⟨%d1, H1⟩, ⟨%d2, H2⟩⟩
        iapply (run0_A c (grid0.coords t) _ _ _ _ _ _ _ _ hc1 hc2 (lblk0 V c t) (rblk0 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
  · have hz : t.val ≠ 0 := fun h => h0 (by omega)
    have hc1 : ¬cond0_1 (grid0.coords t) := fun h => h0 ((hcond0_1 t).mp h)
    by_cases h1 : t.val % 4 = 3
    · -- k = 3: the accumulator grows by the blocks' product and is copied to the output's buffer
      have hc2 : cond0_2 (grid0.coords t) := (hcond0_2 t).mpr h1
      rw [show (dat0 V c).leavesExact 2 t = owns (c : Thread nD τ) (st0_2 t) fullShare ((dat0 V c).after 2 t) from by
          unfold Dat.leavesExact; rw [liveAt0_2 t hc2], after0_2]
      rw [accAt0_step V c t h0]
      rw [Phi0_castSucc V c t, PhiS0_pos V c _ _ hz]
      iintro ⟨⟨HS, Hr, Hg⟩, Ho, ⟨%d0, H0⟩, ⟨%d1, H1⟩, ⟨%d2, H2⟩⟩
      iapply (run0_C c (grid0.coords t) _ _ _ _ _ _ _ _ hc1 hc2 (lblk0 V c t) (rblk0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- k = 1, 2: the accumulator grows by the blocks' product; the output's buffer is idle and keeps what it held
      have hc2 : ¬cond0_2 (grid0.coords t) := fun h => h1 ((hcond0_2 t).mp h)
      rw [Dat.leavesExact_idle (dat0 V c) 2 t (idleAt0_2 t hc2) (noFlush0_2 t hc2)]
      rw [accAt0_step V c t h0]
      rw [Phi0_castSucc V c t, PhiS0_pos V c _ _ hz]
      iintro ⟨⟨HS, Hr, Hg⟩, Ho, ⟨%d0, H0⟩, ⟨%d1, H1⟩, ⟨%d2, H2⟩⟩
      iapply (run0_B c (grid0.coords t) _ _ _ _ _ _ _ _ hc1 hc2 (lblk0 V c t) (rblk0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_split]
  iintro ⟨HS, Hr, Hg⟩
  isplitl [HS Hr]
  · isplitl [HS]
    · iexists _; iexact HS
    iexact Hr
  iexact Hg

end Cert.Kernel.Hand

end
-- ==== Proof.Kernel.Matmul1Body.lean ====
/-
  The second matrix-product kernel (the pallas_call that forms L·(L·x)), one grid point at a time.

  The grid is 8 × 4: point (i, k) multiplies the (1024 × 2048) block (i, k) of the left operand with the
  (2048 × 128) block k of the right operand and adds the product to a (1024 × 128) accumulator held in a
  scratch buffer.  The accumulator is zeroed when k = 0 and copied to the output block when k = 3.

  Three control cases are met on the grid; for each, what the body leaves in the accumulator and in the
  output's staging buffer is stated as a pure function of what it found:
    k = 0      : accumulator ← 0 + blockL · blockR            (output buffer untouched)
    k = 1, 2   : accumulator ← accumulator + blockL · blockR  (output buffer untouched)
    k = 3      : accumulator ← accumulator + blockL · blockR, output ← the new accumulator.
-/
import proofs.«108918_j70763881168941_1_alg».proof.Proof.Gen.Kernel.Launch
import proofs.«108918_j70763881168941_1_alg».proof.Proof.Gen.Kernel.Skeleton
import proofs.«108918_j70763881168941_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "k = 0": the accumulator is reset at this point. -/
abbrev cond1_1 (i : grid1.Coords) : Prop :=
  (Scalar.cmpi .ne (Scalar.extui (Scalar.cmpi .eq (BitVec.ofNat 32 (i 1).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- "k = 3": the accumulator is copied out at this point. -/
abbrev cond1_2 (i : grid1.Coords) : Prop := k1_cond2 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-- The offset of every access of this body: the origin. -/
theorem hzAcc1 : (![0, 0] : Fin 2 → ℕ) = fun _ => 0 := by
  funext a; fin_cases a <;> rfl

/-- A store through the whole rectangle of a shape, last in a list of stores, covers the shape. -/
theorem cover_whole1 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

set_option maxHeartbeats 1000000 in
/-- k = 0: the accumulator is zeroed, then gains the blocks' product; the output's buffer is handed back untouched. -/
theorem run1_A (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : cond1_1 i) (hc2 : ¬cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k1_pay2 x0 x1 k1_pay1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

set_option maxHeartbeats 1000000 in
/-- k = 1, 2: the accumulator gains the blocks' product; the output's buffer is handed back untouched. -/
theorem run1_B (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond1_1 i) (hc2 : ¬cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

set_option maxHeartbeats 1000000 in
/-- k = 3: the accumulator gains the blocks' product and is copied whole into the output's buffer. -/
theorem run1_C (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond1_1 i) (hc2 : cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_words
    rw [View.read_writes_eq_canon _ _ _ (cover_whole1 hzAcc1 _ _ _)]
    first
      | rw [View.canon_unit_zero hzAcc1]
      | rw [View.canon_cons_unit_zero hzAcc1]
    simp only [View.readAt_eq_ld, View.ld_unit_zero (S := S1024x2048) hzAcc1, View.ld_unit_zero (S := S2048x128) hzAcc1,
      View.ld_unit_zero (S := S1024x128) hzAcc1, View.readCov_unit_zero (S := S1024x128) _ hzAcc1]
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

end Cert.Kernel.Hand

end
-- ==== Proof.Kernel.Matmul1Data.lean ====
/-
  The second matrix-product kernel over its whole grid: what its accumulator holds after every grid point, the
  invariant that carries the accumulator from one point to the next, and the per-point obligation.

  Points are numbered n = 4·i + k.  After point n the accumulator holds the partial product over the
  column blocks 0 … k of block row i:
      acc(n) = (if k = 0 then 0 else acc(n − 1)) + blockL(n) · blockR(n).
  The output's staging buffer is written only at k = 3 (with acc(n)) and is left as found elsewhere.
-/
import proofs.«108918_j70763881168941_1_alg».proof.Proof.Kernel.Matmul1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's (1024 × 2048) block and the right operand's (2048 × 128) block at point `t`. -/
abbrev lblk1 (c : Dev nD) (t : Fin cfg1.N) : Vec F S1024x2048 .f32 := iblk1 V c 0 t
abbrev rblk1 (c : Dev nD) (t : Fin cfg1.N) : Vec F S2048x128 .f32 := iblk1 V c 1 t

/-! ## The accumulator after each point -/

/-- The accumulator after point `n`: restarted from zero where k = 0, else grown from the point before. -/
def accAt1 (c : Dev nD) : (n : ℕ) → n < cfg1.N → Vec F S1024x128 .f32
  | 0, hn => k1_pay2 (lblk1 V c ⟨0, hn⟩) (rblk1 V c ⟨0, hn⟩) k1_pay1
  | n + 1, hn =>
    if (n + 1) % 4 = 0 then k1_pay2 (lblk1 V c ⟨n + 1, hn⟩) (rblk1 V c ⟨n + 1, hn⟩) k1_pay1
    else k1_pay2 (lblk1 V c ⟨n + 1, hn⟩) (rblk1 V c ⟨n + 1, hn⟩) (accAt1 c n (Nat.lt_of_succ_lt hn))

theorem accAt1_reset (c : Dev nD) (t : Fin cfg1.N) (h : t.val % 4 = 0) :
    accAt1 V c t.val t.isLt = k1_pay2 (lblk1 V c t) (rblk1 V c t) k1_pay1 := by
  obtain ⟨n, hn⟩ := t
  cases n with
  | zero => rfl
  | succ n => exact if_pos h

theorem accAt1_step (c : Dev nD) (t : Fin cfg1.N) (h : ¬t.val % 4 = 0) :
    accAt1 V c t.val t.isLt
      = k1_pay2 (lblk1 V c t) (rblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The accumulator's scratch buffer as the body is handed it. -/
abbrev scM1 : Memref sig .tc .vmem S1024x128 .f32 := Memref.whole cc1_scratch0

/-- Before the first point every scoped buffer outside the pipeline's staging holds anything; afterwards the
    accumulator holds `accAt1` of the point before, the other such buffers anything.  The generator register rides along. -/
def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class invariant with the accumulator's buffer split off. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [scM1, owns_whole]; rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem liveAt1_2 : ∀ t : Fin cfg1.N, cond1_2 (grid1.coords t) → cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  by_cases h0 : t.val % 4 = 0
  · by_cases h1 : t.val % 4 = 3
    · exfalso; omega
    · -- k = 0: the accumulator restarts; the output's buffer is idle here and keeps what it held
      have hc1 : cond1_1 (grid1.coords t) := (hcond1_1 t).mpr h0
      have hc2 : ¬cond1_2 (grid1.coords t) := fun h => h1 ((hcond1_2 t).mp h)
      rw [Dat.leavesExact_idle (dat1 V c) 2 t (idleAt1_2 t hc2) (noFlush1_2 t hc2)]
      rw [accAt1_reset V c t h0]
      by_cases hz : t.val = 0
      · -- the first point: the accumulator's buffer holds anything
        rw [Phi1_castSucc V c t, PhiS1_zero V c _ _ hz, PhiA1_split]
        iintro ⟨⟨⟨⟨%ds, HS⟩, Hr⟩, Hg⟩, Ho, ⟨%d0, H0⟩, ⟨%d1, H1⟩, ⟨%d2, H2⟩⟩
        iapply (run1_A c (grid1.coords t) _ _ _ _ _ _ _ _ hc1 hc2 (lblk1 V c t) (rblk1 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · -- the first point of a later block row: the accumulator's buffer holds the row before's last partial product, which the reset discards
        rw [Phi1_castSucc V c t, PhiS1_pos V c _ _ hz]
        iintro ⟨⟨HS, Hr, Hg⟩, Ho, ⟨%d0, H0⟩, ⟨%d1, H1⟩, ⟨%d2, H2⟩⟩
        iapply (run1_A c (grid1.coords t) _ _ _ _ _ _ _ _ hc1 hc2 (lblk1 V c t) (rblk1 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
  · have hz : t.val ≠ 0 := fun h => h0 (by omega)
    have hc1 : ¬cond1_1 (grid1.coords t) := fun h => h0 ((hcond1_1 t).mp h)
    by_cases h1 : t.val % 4 = 3
    · -- k = 3: the accumulator grows by the blocks' product and is copied to the output's buffer
      have hc2 : cond1_2 (grid1.coords t) := (hcond1_2 t).mpr h1
      rw [show (dat1 V c).leavesExact 2 t = owns (c : Thread nD τ) (st1_2 t) fullShare ((dat1 V c).after 2 t) from by
          unfold Dat.leavesExact; rw [liveAt1_2 t hc2], after1_2]
      rw [accAt1_step V c t h0]
      rw [Phi1_castSucc V c t, PhiS1_pos V c _ _ hz]
      iintro ⟨⟨HS, Hr, Hg⟩, Ho, ⟨%d0, H0⟩, ⟨%d1, H1⟩, ⟨%d2, H2⟩⟩
      iapply (run1_C c (grid1.coords t) _ _ _ _ _ _ _ _ hc1 hc2 (lblk1 V c t) (rblk1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- k = 1, 2: the accumulator grows by the blocks' product; the output's buffer is idle and keeps what it held
      have hc2 : ¬cond1_2 (grid1.coords t) := fun h => h1 ((hcond1_2 t).mp h)
      rw [Dat.leavesExact_idle (dat1 V c) 2 t (idleAt1_2 t hc2) (noFlush1_2 t hc2)]
      rw [accAt1_step V c t h0]
      rw [Phi1_castSucc V c t, PhiS1_pos V c _ _ hz]
      iintro ⟨⟨HS, Hr, Hg⟩, Ho, ⟨%d0, H0⟩, ⟨%d1, H1⟩, ⟨%d2, H2⟩⟩
      iapply (run1_B c (grid1.coords t) _ _ _ _ _ _ _ _ hc1 hc2 (lblk1 V c t) (rblk1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_split]
  iintro ⟨HS, Hr, Hg⟩
  isplitl [HS Hr]
  · isplitl [HS]
    · iexists _; iexact HS
    iexact Hr
  iexact Hg

end Cert.Kernel.Hand

end
-- ==== Proof.Kernel.Combine2Data.lean ====
/-
  The combining kernel (the third pallas_call), one row block of 1024 rows per grid point.

  At point i the body reads the row blocks i of x, of T1 = L·x and of LT1 = L·T1 and the three (128 × 128)
  transposed weight slices (staged once, at the first point), and stores
      x_i · A0 + T1_i · A1 + (2 · LT1_i − x_i) · A2
  into the row block i of the result.  Nothing is carried between points.
-/
import proofs.«108918_j70763881168941_1_alg».proof.Proof.Gen.Kernel.Launch
import proofs.«108918_j70763881168941_1_alg».proof.Proof.Gen.Kernel.Skeleton
import proofs.«108918_j70763881168941_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: every input's staging buffer keeps its block; the output's holds the body's one payload of
    the six input blocks; the invariant is the class's (the scoped rest and the generator register, untouched). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  dsimp only [dat2]

/-! ## The body's accesses -/

/-- Every access of this body starts at the origin of its buffer. -/
theorem hzAcc2 : (![0, 0] : Fin 2 → ℕ) = fun _ => 0 := by
  funext a; fin_cases a <;> rfl

/-- The body's one store goes through the whole rectangle of the output block, so it alone covers the block. -/
theorem cover_whole2 {Val : EltTy → Type} {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set := by
  subst h
  refine ⟨_, List.mem_singleton.2 rfl, ?_⟩
  show y ∈ (Rect.whole S).set
  rw [Rect.set_whole]; exact Finset.mem_univ y

/-! ## What the body finds in the input windows

Each input's current staging buffer holds that window's block at every point.  For the three row-block windows the
block is fetched at every point; the three weight slices are fetched at the first point only and their block index
never moves afterwards, so the buffer still holds the same block.  One law covers both cases. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-! ## The body's triple -/

set_option maxHeartbeats 1000000 in
/-- On whole buffers, the six inputs' at read contents `x0 … x5` and the output's at anything, the body runs to the
    continuation with the inputs' as they were and the output's at the payload of the six: the load of the output's
    buffer is not used, and the one store overwrites the whole block. -/
theorem sound_kernel2 (c : Dev nD) (E : Set ℕ) (i : grid2.Coords)
    (arg1 : Memref sig .tc .vmem S1024x128 .f32) (harg1 : arg1.IsWhole)
    (arg2 : Memref sig .tc .vmem S1024x128 .f32) (harg2 : arg2.IsWhole)
    (arg3 : Memref sig .tc .vmem S1024x128 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1024x128 .f32) (harg7 : arg7.IsWhole)
    (x0 x1 x2 : Vec F S1024x128 .f32) (x3 x4 x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (cover_whole2 hzAcc2 _ _), View.canon_unit_zero hzAcc2]
  simp only [View.readAt_eq_ld, View.ld_unit_zero (S := S1024x128) hzAcc2, View.ld_unit_zero (S := S128x128) hzAcc2]

/-! ## The body obligation, at a generic point -/

/-- What the body is called with at point `t`: the invariant, what the core owes, and the seven windows' current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and what the
    core owes pass through unread, and are the same at the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/-
  The whole program as a run: the two matrix-product kernels, the host stretch that transposes and slices the
  weights, and the combining kernel, each entered from what the one before left.

  The contents of every unscoped buffer at each boundary are a fold from the launch memory: a kernel region
  replaces its windows' arrays by what its write-backs leave (its inputs as entered), the host stretch applies
  its operations.  The run ends with every unscoped buffer at the last stage of the fold; the argument arrays
  are read back through the fold to the launch memory (no stage writes one), and the result array is what the
  combining kernel's write-backs leave.
-/
import proofs.«108918_j70763881168941_1_alg».proof.Proof.Kernel.Matmul0Data
import proofs.«108918_j70763881168941_1_alg».proof.Proof.Kernel.Matmul1Data
import proofs.«108918_j70763881168941_1_alg».proof.Proof.Kernel.Combine2Data
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the first pallas_call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call: its arrays at what its write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After the third pallas_call: its arrays at what its write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- The combining kernel keeps the class invariant at every point. -/
theorem hin2 (V : (c : Dev nD) → (b : Ref sig .tc) → Buf (Elt F) ((c : Thread nD τ).loc b)) (c : Dev nD) :
    Pipeline.ΦA spec2 c ⊢ (dat2 V c).Φ 0 := BI.Entails.refl _
theorem hout2 (V : (c : Dev nD) → (b : Ref sig .tc) → Buf (Elt F) ((c : Thread nD τ).loc b)) (c : Dev nD) :
    (dat2 V c).Φ (Fin.last cfg2.N) ⊢ Pipeline.ΦA spec2 c := BI.Entails.refl _

/-- The same entailments with the class invariant spelt out: the scoped rest beside the generator register. -/
theorem hin0' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec0 c ∗ ∃ r, prngReg c r) ⊢ (dat0 V c).Φ 0 := hin0 V c
theorem hout0' (V : (c : Dev nD) → (b : Ref sig .tc) → Buf (Elt F) ((c : Thread nD τ).loc b)) (c : Dev nD) :
    (dat0 V c).Φ (Fin.last cfg0.N) ⊢ iprop(Pipeline.scopedRest (Ix := Unit) (Name := ℕ) (U := UR sig nD τ) (Lvl := ℕ) (Val := Elt F) spec0 c ∗ ∃ r, prngReg c r) := hout0 V c
theorem hin1' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec1 c ∗ ∃ r, prngReg c r) ⊢ (dat1 V c).Φ 0 := hin1 V c
theorem hout1' (V : (c : Dev nD) → (b : Ref sig .tc) → Buf (Elt F) ((c : Thread nD τ).loc b)) (c : Dev nD) :
    (dat1 V c).Φ (Fin.last cfg1.N) ⊢ iprop(Pipeline.scopedRest (Ix := Unit) (Name := ℕ) (U := UR sig nD τ) (Lvl := ℕ) (Val := Elt F) spec1 c ∗ ∃ r, prngReg c r) := hout1 V c
theorem hin2' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec2 c ∗ ∃ r, prngReg c r) ⊢ (dat2 V c).Φ 0 := hin2 V c
theorem hout2' (V : (c : Dev nD) → (b : Ref sig .tc) → Buf (Elt F) ((c : Thread nD τ).loc b)) (c : Dev nD) :
    (dat2 V c).Φ (Fin.last cfg2.N) ⊢ iprop(Pipeline.scopedRest (Ix := Unit) (Name := ℕ) (U := UR sig nD τ) (Lvl := ℕ) (Val := Elt F) spec2 c ∗ ∃ r, prngReg c r) := hout2 V c

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0' (V0 m) c)
    isplitl [Hr]; · iexact Hr
    iexact Hp
  hout c := by
    rw [Pipeline.ownSems0_none, show (pdats m 0 c).Φ (Fin.last _) = (dat0 (V0 m) c).Φ (Fin.last cfg0.N) from rfl]
    have hback := hout0' (V0 m) c
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1' (V1 m) c)
    isplitl [Hr]; · iexact Hr
    iexact Hp
  hout c := by
    rw [Pipeline.ownSems0_none, show (pdats m 1 c).Φ (Fin.last _) = (dat1 (V1 m) c).Φ (Fin.last cfg1.N) from rfl]
    have hback := hout1' (V1 m) c
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    iintro ⟨Hp, -, Hr⟩
    iapply (hin2' (V3 m) c)
    isplitl [Hr]; · iexact Hr
    iexact Hp
  hout c := by
    rw [Pipeline.ownSems0_none, show (pdats m 2 c).Φ (Fin.last _) = (dat2 (V3 m) c).Φ (Fin.last cfg2.N) from rfl]
    have hback := hout2' (V3 m) c
    iintro H
    ihave H' := hback $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m), .host (hseg hostOps2 hostOps2_sub hostOps2_fresh' (W2 m)), .region (reg2 m) ]
theorem main_run (c : Dev nD) : main (F := F) c = Pipeline.Seg.run (segs m) := (main_chain c).trans (by chain_rfl)

set_option backward.isDefEq.respectTransparency.types false in
/-- Every weakly fair execution terminates, faulting nowhere, with every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Kernel.Results.lean ====
/-
  Reading the run's last stage: each argument array walks back through the fold to the launch memory — the
  host stretch writes only its own seven results, a kernel region changes only its output window's array and
  hands every input array back as entered — and the result array is what the combining kernel's write-backs
  leave.  From this the frame claim follows at any instance of the float operations.
-/
import proofs.«108918_j70763881168941_1_alg».proof.Proof.Kernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch writes none of these -/

theorem W3_main_arg0 (c : Dev nD) : W3 m c (Proc.devRef .tc main_arg0) = W2 m c (Proc.devRef .tc main_arg0) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_arg1 (c : Dev nD) : W3 m c (Proc.devRef .tc main_arg1) = W2 m c (Proc.devRef .tc main_arg1) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_arg2 (c : Dev nD) : W3 m c (Proc.devRef .tc main_arg2) = W2 m c (Proc.devRef .tc main_arg2) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_v0 (c : Dev nD) : W3 m c (Proc.devRef .tc main_v0) = W2 m c (Proc.devRef .tc main_v0) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_v1 (c : Dev nD) : W3 m c (Proc.devRef .tc main_v1) = W2 m c (Proc.devRef .tc main_v1) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

/-! ## The stages at the buffers the claims read -/

/-- x reaches every stage as launched: the first kernel reads it through window 1, the third through window 0. -/
theorem W1_main_arg0 (c : Dev nD) : W1 m c (Proc.devRef .tc main_arg0) = m ((c : Thread nD τ).loc main_arg0) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_of_ne m c main_arg0 (by decide)).trans (W1_main_arg0 m c)
theorem W4_main_arg0 (c : Dev nD) : W4 m c (Proc.devRef .tc main_arg0) = m ((c : Thread nD τ).loc main_arg0) :=
  (W4_arr m c 0).trans (((dat2 (V3 m) c).arrAt_in 0 rfl _).trans ((A_eq2 (V3 m) c 0).trans ((W3_main_arg0 m c).trans (W2_main_arg0 m c))))

/-- L likewise: both matrix-product kernels read it through their window 0. -/
theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (W1_main_arg1 m c)))
theorem W4_main_arg1 (c : Dev nD) : W4 m c (Proc.devRef .tc main_arg1) = m ((c : Thread nD τ).loc main_arg1) :=
  (W4_of_ne m c main_arg1 (by decide)).trans ((W3_main_arg1 m c).trans (W2_main_arg1 m c))

/-- W is no window's array of the matrix-product kernels and is only read by the host stretch. -/
theorem W2_main_arg2 (c : Dev nD) : W2 m c (Proc.devRef .tc main_arg2) = m ((c : Thread nD τ).loc main_arg2) :=
  (W2_of_ne m c main_arg2 (by decide)).trans (W1_of_ne m c main_arg2 (by decide))
theorem W4_main_arg2 (c : Dev nD) : W4 m c (Proc.devRef .tc main_arg2) = m ((c : Thread nD τ).loc main_arg2) :=
  (W4_of_ne m c main_arg2 (by decide)).trans ((W3_main_arg2 m c).trans (W2_main_arg2 m c))

/-- The first product as the later stages find it: what the first kernel's write-backs left. -/
theorem W2_main_v0 (c : Dev nD) : W2 m c (Proc.devRef .tc main_v0) = (dat0 (V0 m) c).arrAt 2 cfg0.N :=
  (W2_arr m c 1).trans (((dat1 (V1 m) c).arrAt_in 1 rfl _).trans ((A_eq1 (V1 m) c 1).trans (W1_arr m c 2)))
theorem W3_main_v0' (c : Dev nD) : W3 m c (Proc.devRef .tc main_v0) = (dat0 (V0 m) c).arrAt 2 cfg0.N :=
  (W3_main_v0 m c).trans (W2_main_v0 m c)
/-- The second product: what the second kernel's write-backs left. -/
theorem W3_main_v1' (c : Dev nD) : W3 m c (Proc.devRef .tc main_v1) = (dat1 (V1 m) c).arrAt 2 cfg1.N :=
  (W3_main_v1 m c).trans (W2_arr m c 2)
/-- The result array at the end. -/
theorem W4_main_v9 (c : Dev nD) : W4 m c (Proc.devRef .tc main_v9) = (dat2 (V3 m) c).arrAt 6 cfg2.N :=
  W4_arr m c 6

/-! ## The frame claim -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Hand

end
-- ==== Proof.KernelIdeal.Matmul0Body.lean ====
/-
  The first matrix-product kernel (the pallas_call that forms L·x), one grid point at a time.

  The grid is 8 × 4: point (i, k) multiplies the (1024 × 2048) block (i, k) of the left operand with the
  (2048 × 128) block k of the right operand and adds the product to a (1024 × 128) accumulator held in a
  scratch buffer.  The accumulator is zeroed when k = 0 and copied to the output block when k = 3.

  Three control cases are met on the grid; for each, what the body leaves in the accumulator and in the
  output's staging buffer is stated as a pure function of what it found:
    k = 0      : accumulator ← 0 + blockL · blockR            (output buffer untouched)
    k = 1, 2   : accumulator ← accumulator + blockL · blockR  (output buffer untouched)
    k = 3      : accumulator ← accumulator + blockL · blockR, output ← the new accumulator.
-/
import proofs.«108918_j70763881168941_1_alg».proof.Proof.Gen.KernelIdeal.Launch
import proofs.«108918_j70763881168941_1_alg».proof.Proof.Gen.KernelIdeal.Skeleton
import proofs.«108918_j70763881168941_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "k = 0": the accumulator is reset at this point. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- "k = 3": the accumulator is copied out at this point. -/
abbrev cond0_2 (i : grid0.Coords) : Prop := k0_cond2 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- The offset of every access of this body: the origin. -/
theorem hzAcc0 : (![0, 0] : Fin 2 → ℕ) = fun _ => 0 := by
  funext a; fin_cases a <;> rfl

/-- A store through the whole rectangle of a shape, last in a list of stores, covers the shape. -/
theorem cover_whole0 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

set_option maxHeartbeats 1000000 in
/-- k = 0: the accumulator is zeroed, then gains the blocks' product; the output's buffer is handed back untouched. -/
theorem run0_A (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : cond0_1 i) (hc2 : ¬cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 k0_pay1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

set_option maxHeartbeats 1000000 in
/-- k = 1, 2: the accumulator gains the blocks' product; the output's buffer is handed back untouched. -/
theorem run0_B (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond0_1 i) (hc2 : ¬cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

set_option maxHeartbeats 1000000 in
/-- k = 3: the accumulator gains the blocks' product and is copied whole into the output's buffer. -/
theorem run0_C (c : Dev nD) (i : grid0.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond0_1 i) (hc2 : cond0_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_words
    rw [View.read_writes_eq_canon _ _ _ (cover_whole0 hzAcc0 _ _ _)]
    first
      | rw [View.canon_unit_zero hzAcc0]
      | rw [View.canon_cons_unit_zero hzAcc0]
    simp only [View.readAt_eq_ld, View.ld_unit_zero (S := S1024x2048) hzAcc0, View.ld_unit_zero (S := S2048x128) hzAcc0,
      View.ld_unit_zero (S := S1024x128) hzAcc0, View.readCov_unit_zero (S := S1024x128) _ hzAcc0]
  iexists _; isplitr
  swap; · iexact HS
  ipureintro
  sl_unfold_words
  rw [View.read_writes_eq_canon _ _ _ (cover_whole0 hzAcc0 _ _ _)]
  first
    | rw [View.canon_unit_zero hzAcc0]
    | rw [View.canon_cons_unit_zero hzAcc0]
  simp only [View.readAt_eq_ld, View.ld_unit_zero (S := S1024x2048) hzAcc0, View.ld_unit_zero (S := S2048x128) hzAcc0,
    View.ld_unit_zero (S := S1024x128) hzAcc0, View.readCov_unit_zero (S := S1024x128) _ hzAcc0]

end Cert.KernelIdeal.Hand

end
-- ==== Proof.KernelIdeal.Matmul0Data.lean ====
/-
  The first matrix-product kernel over its whole grid: what its accumulator holds after every grid point, the
  invariant that carries the accumulator from one point to the next, and the per-point obligation.

  Points are numbered n = 4·i + k.  After point n the accumulator holds the partial product over the
  column blocks 0 … k of block row i:
      acc(n) = (if k = 0 then 0 else acc(n − 1)) + blockL(n) · blockR(n).
  The output's staging buffer is written only at k = 3 (with acc(n)) and is left as found elsewhere.
-/
import proofs.«108918_j70763881168941_1_alg».proof.Proof.KernelIdeal.Matmul0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's (1024 × 2048) block and the right operand's (2048 × 128) block at point `t`. -/
abbrev lblk0 (c : Dev nD) (t : Fin cfg0.N) : Vec F S1024x2048 .f32 := iblk0 V c 0 t
abbrev rblk0 (c : Dev nD) (t : Fin cfg0.N) : Vec F S2048x128 .f32 := iblk0 V c 1 t

/-! ## The accumulator after each point -/

/-- The accumulator after point `n`: restarted from zero where k = 0, else grown from the point before. -/
def accAt0 (c : Dev nD) : (n : ℕ) → n < cfg0.N → Vec F S1024x128 .f32
  | 0, hn => k0_pay2 (lblk0 V c ⟨0, hn⟩) (rblk0 V c ⟨0, hn⟩) k0_pay1
  | n + 1, hn =>
    if (n + 1) % 4 = 0 then k0_pay2 (lblk0 V c ⟨n + 1, hn⟩) (rblk0 V c ⟨n + 1, hn⟩) k0_pay1
    else k0_pay2 (lblk0 V c ⟨n + 1, hn⟩) (rblk0 V c ⟨n + 1, hn⟩) (accAt0 c n (Nat.lt_of_succ_lt hn))

theorem accAt0_reset (c : Dev nD) (t : Fin cfg0.N) (h : t.val % 4 = 0) :
    accAt0 V c t.val t.isLt = k0_pay2 (lblk0 V c t) (rblk0 V c t) k0_pay1 := by
  obtain ⟨n, hn⟩ := t
  cases n with
  | zero => rfl
  | succ n => exact if_pos h

theorem accAt0_step (c : Dev nD) (t : Fin cfg0.N) (h : ¬t.val % 4 = 0) :
    accAt0 V c t.val t.isLt
      = k0_pay2 (lblk0 V c t) (rblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The accumulator's scratch buffer as the body is handed it. -/
abbrev scM0 : Memref sig .tc .vmem S1024x128 .f32 := Memref.whole cc0_scratch0

/-- Before the first point every scoped buffer outside the pipeline's staging holds anything; afterwards the
    accumulator holds `accAt0` of the point before, the other such buffers anything.  The generator register rides along. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The class invariant with the accumulator's buffer split off. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [scM0, owns_whole]; rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  by_cases h0 : t.val % 4 = 0
  · by_cases h1 : t.val % 4 = 3
    · exfalso; omega
    · -- k = 0: the accumulator restarts; the output's buffer is idle here and keeps what it held
      have hc1 : cond0_1 (grid0.coords t) := (hcond0_1 t).mpr h0
      have hc2 : ¬cond0_2 (grid0.coords t) := fun h => h1 ((hcond0_2 t).mp h)
      rw [Dat.leavesExact_idle (dat0 V c) 2 t (idleAt0_2 t hc2) (noFlush0_2 t hc2)]
      rw [accAt0_reset V c t h0]
      by_cases hz : t.val = 0
      · -- the first point: the accumulator's buffer holds anything
        rw [Phi0_castSucc V c t, PhiS0_zero V c _ _ hz, PhiA0_split]
        iintro ⟨⟨⟨⟨%ds, HS⟩, Hr⟩, Hg⟩, Ho, ⟨%d0, H0⟩, ⟨%d1, H1⟩, ⟨%d2, H2⟩⟩
        iapply (run0_A c (grid0.coords t) _ _ _ _ _ _ _ _ hc1 hc2 (lblk0 V c t) (rblk0 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · -- the first point of a later block row: the accumulator's buffer holds the row before's last partial product, which the reset discards
        rw [Phi0_castSucc V c t, PhiS0_pos V c _ _ hz]
        iintro ⟨⟨HS, Hr, Hg⟩, Ho, ⟨%d0, H0⟩, ⟨%d1, H1⟩, ⟨%d2, H2⟩⟩
        iapply (run0_A c (grid0.coords t) _ _ _ _ _ _ _ _ hc1 hc2 (lblk0 V c t) (rblk0 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
  · have hz : t.val ≠ 0 := fun h => h0 (by omega)
    have hc1 : ¬cond0_1 (grid0.coords t) := fun h => h0 ((hcond0_1 t).mp h)
    by_cases h1 : t.val % 4 = 3
    · -- k = 3: the accumulator grows by the blocks' product and is copied to the output's buffer
      have hc2 : cond0_2 (grid0.coords t) := (hcond0_2 t).mpr h1
      rw [show (dat0 V c).leavesExact 2 t = owns (c : Thread nD τ) (st0_2 t) fullShare ((dat0 V c).after 2 t) from by
          unfold Dat.leavesExact; rw [liveAt0_2 t hc2], after0_2]
      rw [accAt0_step V c t h0]
      rw [Phi0_castSucc V c t, PhiS0_pos V c _ _ hz]
      iintro ⟨⟨HS, Hr, Hg⟩, Ho, ⟨%d0, H0⟩, ⟨%d1, H1⟩, ⟨%d2, H2⟩⟩
      iapply (run0_C c (grid0.coords t) _ _ _ _ _ _ _ _ hc1 hc2 (lblk0 V c t) (rblk0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- k = 1, 2: the accumulator grows by the blocks' product; the output's buffer is idle and keeps what it held
      have hc2 : ¬cond0_2 (grid0.coords t) := fun h => h1 ((hcond0_2 t).mp h)
      rw [Dat.leavesExact_idle (dat0 V c) 2 t (idleAt0_2 t hc2) (noFlush0_2 t hc2)]
      rw [accAt0_step V c t h0]
      rw [Phi0_castSucc V c t, PhiS0_pos V c _ _ hz]
      iintro ⟨⟨HS, Hr, Hg⟩, Ho, ⟨%d0, H0⟩, ⟨%d1, H1⟩, ⟨%d2, H2⟩⟩
      iapply (run0_B c (grid0.coords t) _ _ _ _ _ _ _ _ hc1 hc2 (lblk0 V c t) (rblk0 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_split]
  iintro ⟨HS, Hr, Hg⟩
  isplitl [HS Hr]
  · isplitl [HS]
    · iexists _; iexact HS
    iexact Hr
  iexact Hg

end Cert.KernelIdeal.Hand

end
-- ==== Proof.KernelIdeal.Matmul1Body.lean ====
/-
  The second matrix-product kernel (the pallas_call that forms L·(L·x)), one grid point at a time.

  The grid is 8 × 4: point (i, k) multiplies the (1024 × 2048) block (i, k) of the left operand with the
  (2048 × 128) block k of the right operand and adds the product to a (1024 × 128) accumulator held in a
  scratch buffer.  The accumulator is zeroed when k = 0 and copied to the output block when k = 3.

  Three control cases are met on the grid; for each, what the body leaves in the accumulator and in the
  output's staging buffer is stated as a pure function of what it found:
    k = 0      : accumulator ← 0 + blockL · blockR            (output buffer untouched)
    k = 1, 2   : accumulator ← accumulator + blockL · blockR  (output buffer untouched)
    k = 3      : accumulator ← accumulator + blockL · blockR, output ← the new accumulator.
-/
import proofs.«108918_j70763881168941_1_alg».proof.Proof.Gen.KernelIdeal.Launch
import proofs.«108918_j70763881168941_1_alg».proof.Proof.Gen.KernelIdeal.Skeleton
import proofs.«108918_j70763881168941_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "k = 0": the accumulator is reset at this point. -/
abbrev cond1_1 (i : grid1.Coords) : Prop :=
  (Scalar.cmpi .ne (Scalar.extui (Scalar.cmpi .eq (BitVec.ofNat 32 (i 1).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- "k = 3": the accumulator is copied out at this point. -/
abbrev cond1_2 (i : grid1.Coords) : Prop := k1_cond2 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-- The offset of every access of this body: the origin. -/
theorem hzAcc1 : (![0, 0] : Fin 2 → ℕ) = fun _ => 0 := by
  funext a; fin_cases a <;> rfl

/-- A store through the whole rectangle of a shape, last in a list of stores, covers the shape. -/
theorem cover_whole1 {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set := by
  subst h; intro y
  exact ⟨_, List.mem_cons_self .., by show y ∈ (Rect.whole S).set; rw [Rect.set_whole]; exact Finset.mem_univ y⟩

set_option maxHeartbeats 1000000 in
/-- k = 0: the accumulator is zeroed, then gains the blocks' product; the output's buffer is handed back untouched. -/
theorem run1_A (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : cond1_1 i) (hc2 : ¬cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k1_pay2 x0 x1 k1_pay1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

set_option maxHeartbeats 1000000 in
/-- k = 1, 2: the accumulator gains the blocks' product; the output's buffer is handed back untouched. -/
theorem run1_B (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond1_1 i) (hc2 : ¬cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (xo)
            ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists fo; isplitr; · ipureintro; rfl
    iexact HO
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

set_option maxHeartbeats 1000000 in
/-- k = 3: the accumulator gains the blocks' product and is copied whole into the output's buffer. -/
theorem run1_C (c : Dev nD) (i : grid1.Coords) (arg2 : Memref sig .tc .vmem S1024x2048 .f32) (harg2 : arg2.IsWhole)
    (arg3 : Memref sig .tc .vmem S2048x128 .f32) (harg3 : arg3.IsWhole) (arg4 : Memref sig .tc .vmem S1024x128 .f32) (harg4 : arg4.IsWhole)
    (arg5 : Memref sig .tc .vmem S1024x128 .f32) (harg5 : arg5.IsWhole) (hc1 : ¬cond1_1 i) (hc2 : cond1_2 i)
    (x0 : Vec F S1024x2048 .f32) (x1 : Vec F S2048x128 .f32) (xo xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fo, %hfo, HO⟩, ⟨%fs, %hfs, HS⟩, Hk⟩
  subst hf0; subst hf1; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    sl_unfold_words
    rw [View.read_writes_eq_canon _ _ _ (cover_whole1 hzAcc1 _ _ _)]
    first
      | rw [View.canon_unit_zero hzAcc1]
      | rw [View.canon_cons_unit_zero hzAcc1]
    simp only [View.readAt_eq_ld, View.ld_unit_zero (S := S1024x2048) hzAcc1, View.ld_unit_zero (S := S2048x128) hzAcc1,
      View.ld_unit_zero (S := S1024x128) hzAcc1, View.readCov_unit_zero (S := S1024x128) _ hzAcc1]
  iexists _; isplitr
  swap; · iexact HS
  ipureintro
  sl_unfold_words
  rw [View.read_writes_eq_canon _ _ _ (cover_whole1 hzAcc1 _ _ _)]
  first
    | rw [View.canon_unit_zero hzAcc1]
    | rw [View.canon_cons_unit_zero hzAcc1]
  simp only [View.readAt_eq_ld, View.ld_unit_zero (S := S1024x2048) hzAcc1, View.ld_unit_zero (S := S2048x128) hzAcc1,
    View.ld_unit_zero (S := S1024x128) hzAcc1, View.readCov_unit_zero (S := S1024x128) _ hzAcc1]

end Cert.KernelIdeal.Hand

end
-- ==== Proof.KernelIdeal.Matmul1Data.lean ====
/-
  The second matrix-product kernel over its whole grid: what its accumulator holds after every grid point, the
  invariant that carries the accumulator from one point to the next, and the per-point obligation.

  Points are numbered n = 4·i + k.  After point n the accumulator holds the partial product over the
  column blocks 0 … k of block row i:
      acc(n) = (if k = 0 then 0 else acc(n − 1)) + blockL(n) · blockR(n).
  The output's staging buffer is written only at k = 3 (with acc(n)) and is left as found elsewhere.
-/
import proofs.«108918_j70763881168941_1_alg».proof.Proof.KernelIdeal.Matmul1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's (1024 × 2048) block and the right operand's (2048 × 128) block at point `t`. -/
abbrev lblk1 (c : Dev nD) (t : Fin cfg1.N) : Vec F S1024x2048 .f32 := iblk1 V c 0 t
abbrev rblk1 (c : Dev nD) (t : Fin cfg1.N) : Vec F S2048x128 .f32 := iblk1 V c 1 t

/-! ## The accumulator after each point -/

/-- The accumulator after point `n`: restarted from zero where k = 0, else grown from the point before. -/
def accAt1 (c : Dev nD) : (n : ℕ) → n < cfg1.N → Vec F S1024x128 .f32
  | 0, hn => k1_pay2 (lblk1 V c ⟨0, hn⟩) (rblk1 V c ⟨0, hn⟩) k1_pay1
  | n + 1, hn =>
    if (n + 1) % 4 = 0 then k1_pay2 (lblk1 V c ⟨n + 1, hn⟩) (rblk1 V c ⟨n + 1, hn⟩) k1_pay1
    else k1_pay2 (lblk1 V c ⟨n + 1, hn⟩) (rblk1 V c ⟨n + 1, hn⟩) (accAt1 c n (Nat.lt_of_succ_lt hn))

theorem accAt1_reset (c : Dev nD) (t : Fin cfg1.N) (h : t.val % 4 = 0) :
    accAt1 V c t.val t.isLt = k1_pay2 (lblk1 V c t) (rblk1 V c t) k1_pay1 := by
  obtain ⟨n, hn⟩ := t
  cases n with
  | zero => rfl
  | succ n => exact if_pos h

theorem accAt1_step (c : Dev nD) (t : Fin cfg1.N) (h : ¬t.val % 4 = 0) :
    accAt1 V c t.val t.isLt
      = k1_pay2 (lblk1 V c t) (rblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The accumulator's scratch buffer as the body is handed it. -/
abbrev scM1 : Memref sig .tc .vmem S1024x128 .f32 := Memref.whole cc1_scratch0

/-- Before the first point every scoped buffer outside the pipeline's staging holds anything; afterwards the
    accumulator holds `accAt1` of the point before, the other such buffers anything.  The generator register rides along. -/
def PhiS1 (c : Dev nD) : (n : ℕ) → n ≤ cfg1.N → sProp 𝕄
  | 0, _ => Pipeline.ΦA spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r)) := rfl

theorem PhiS1_pos (c : Dev nD) (n : ℕ) (h : n ≤ cfg1.N) (hz : n ≠ 0) :
    PhiS1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The class invariant with the accumulator's buffer split off. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [scM1, owns_whole]; rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_2 (grid1.coords t) → cfg1.idle 2 (grid1.coords t) = true := by decide +kernel
theorem noFlush1_2 : ∀ t : Fin cfg1.N, ¬cond1_2 (grid1.coords t) → (cfg1.win 2).flush t = false := by decide +kernel
theorem liveAt1_2 : ∀ t : Fin cfg1.N, cond1_2 (grid1.coords t) → cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  by_cases h0 : t.val % 4 = 0
  · by_cases h1 : t.val % 4 = 3
    · exfalso; omega
    · -- k = 0: the accumulator restarts; the output's buffer is idle here and keeps what it held
      have hc1 : cond1_1 (grid1.coords t) := (hcond1_1 t).mpr h0
      have hc2 : ¬cond1_2 (grid1.coords t) := fun h => h1 ((hcond1_2 t).mp h)
      rw [Dat.leavesExact_idle (dat1 V c) 2 t (idleAt1_2 t hc2) (noFlush1_2 t hc2)]
      rw [accAt1_reset V c t h0]
      by_cases hz : t.val = 0
      · -- the first point: the accumulator's buffer holds anything
        rw [Phi1_castSucc V c t, PhiS1_zero V c _ _ hz, PhiA1_split]
        iintro ⟨⟨⟨⟨%ds, HS⟩, Hr⟩, Hg⟩, Ho, ⟨%d0, H0⟩, ⟨%d1, H1⟩, ⟨%d2, H2⟩⟩
        iapply (run1_A c (grid1.coords t) _ _ _ _ _ _ _ _ hc1 hc2 (lblk1 V c t) (rblk1 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · -- the first point of a later block row: the accumulator's buffer holds the row before's last partial product, which the reset discards
        rw [Phi1_castSucc V c t, PhiS1_pos V c _ _ hz]
        iintro ⟨⟨HS, Hr, Hg⟩, Ho, ⟨%d0, H0⟩, ⟨%d1, H1⟩, ⟨%d2, H2⟩⟩
        iapply (run1_A c (grid1.coords t) _ _ _ _ _ _ _ _ hc1 hc2 (lblk1 V c t) (rblk1 V c t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
  · have hz : t.val ≠ 0 := fun h => h0 (by omega)
    have hc1 : ¬cond1_1 (grid1.coords t) := fun h => h0 ((hcond1_1 t).mp h)
    by_cases h1 : t.val % 4 = 3
    · -- k = 3: the accumulator grows by the blocks' product and is copied to the output's buffer
      have hc2 : cond1_2 (grid1.coords t) := (hcond1_2 t).mpr h1
      rw [show (dat1 V c).leavesExact 2 t = owns (c : Thread nD τ) (st1_2 t) fullShare ((dat1 V c).after 2 t) from by
          unfold Dat.leavesExact; rw [liveAt1_2 t hc2], after1_2]
      rw [accAt1_step V c t h0]
      rw [Phi1_castSucc V c t, PhiS1_pos V c _ _ hz]
      iintro ⟨⟨HS, Hr, Hg⟩, Ho, ⟨%d0, H0⟩, ⟨%d1, H1⟩, ⟨%d2, H2⟩⟩
      iapply (run1_C c (grid1.coords t) _ _ _ _ _ _ _ _ hc1 hc2 (lblk1 V c t) (rblk1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexact H2
    · -- k = 1, 2: the accumulator grows by the blocks' product; the output's buffer is idle and keeps what it held
      have hc2 : ¬cond1_2 (grid1.coords t) := fun h => h1 ((hcond1_2 t).mp h)
      rw [Dat.leavesExact_idle (dat1 V c) 2 t (idleAt1_2 t hc2) (noFlush1_2 t hc2)]
      rw [accAt1_step V c t h0]
      rw [Phi1_castSucc V c t, PhiS1_pos V c _ _ hz]
      iintro ⟨⟨HS, Hr, Hg⟩, Ho, ⟨%d0, H0⟩, ⟨%d1, H1⟩, ⟨%d2, H2⟩⟩
      iapply (run1_B c (grid1.coords t) _ _ _ _ _ _ _ _ hc1 hc2 (lblk1 V c t) (rblk1 V c t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_split]
  iintro ⟨HS, Hr, Hg⟩
  isplitl [HS Hr]
  · isplitl [HS]
    · iexists _; iexact HS
    iexact Hr
  iexact Hg

end Cert.KernelIdeal.Hand

end
-- ==== Proof.KernelIdeal.Combine2Data.lean ====
/-
  The combining kernel (the third pallas_call), one row block of 1024 rows per grid point.

  At point i the body reads the row blocks i of x, of T1 = L·x and of LT1 = L·T1 and the three (128 × 128)
  transposed weight slices (staged once, at the first point), and stores
      x_i · A0 + T1_i · A1 + (2 · LT1_i − x_i) · A2
  into the row block i of the result.  Nothing is carried between points.
-/
import proofs.«108918_j70763881168941_1_alg».proof.Proof.Gen.KernelIdeal.Launch
import proofs.«108918_j70763881168941_1_alg».proof.Proof.Gen.KernelIdeal.Skeleton
import proofs.«108918_j70763881168941_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter of everything below
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: every input's staging buffer keeps its block; the output's holds the body's one payload of
    the six input blocks; the invariant is the class's (the scoped rest and the generator register, untouched). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay1 (iblk2 V c 0 t) (iblk2 V c 1 t) (iblk2 V c 2 t) (iblk2 V c 3 t) (iblk2 V c 4 t) (iblk2 V c 5 t) := by
  dsimp only [dat2]

/-! ## The body's accesses -/

/-- Every access of this body starts at the origin of its buffer. -/
theorem hzAcc2 : (![0, 0] : Fin 2 → ℕ) = fun _ => 0 := by
  funext a; fin_cases a <;> rfl

/-- The body's one store goes through the whole rectangle of the output block, so it alone covers the block. -/
theorem cover_whole2 {Val : EltTy → Type} {S : Shape} {e : EltTy} {off : Fin S.rank → Nat} (h : off = fun _ => 0)
    (inb : ∀ a, off a + S.size a ≤ S.size a) (w : S.Idx → Val e) (y : S.Idx) :
    ∃ p ∈ ([⟨Rect.unit off S.size inb, w⟩] : List (View.Piece Val S e)), y ∈ p.1.set := by
  subst h
  refine ⟨_, List.mem_singleton.2 rfl, ?_⟩
  show y ∈ (Rect.whole S).set
  rw [Rect.set_whole]; exact Finset.mem_univ y

/-! ## What the body finds in the input windows

Each input's current staging buffer holds that window's block at every point.  For the three row-block windows the
block is fetched at every point; the three weight slices are fetched at the first point only and their block index
never moves afterwards, so the buffer still holds the same block.  One law covers both cases. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-! ## The body's triple -/

set_option maxHeartbeats 1000000 in
/-- On whole buffers, the six inputs' at read contents `x0 … x5` and the output's at anything, the body runs to the
    continuation with the inputs' as they were and the output's at the payload of the six: the load of the output's
    buffer is not used, and the one store overwrites the whole block. -/
theorem sound_kernel2 (c : Dev nD) (E : Set ℕ) (i : grid2.Coords)
    (arg1 : Memref sig .tc .vmem S1024x128 .f32) (harg1 : arg1.IsWhole)
    (arg2 : Memref sig .tc .vmem S1024x128 .f32) (harg2 : arg2.IsWhole)
    (arg3 : Memref sig .tc .vmem S1024x128 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S1024x128 .f32) (harg7 : arg7.IsWhole)
    (x0 x1 x2 : Vec F S1024x128 .f32) (x3 x4 x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay1 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  rw [View.read_writes_eq_canon _ _ _ (cover_whole2 hzAcc2 _ _), View.canon_unit_zero hzAcc2]
  simp only [View.readAt_eq_ld, View.ld_unit_zero (S := S1024x128) hzAcc2, View.ld_unit_zero (S := S128x128) hzAcc2]

/-! ## The body obligation, at a generic point -/

/-- What the body is called with at point `t`: the invariant, what the core owes, and the seven windows' current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and what the
    core owes pass through unread, and are the same at the next point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/-
  The whole program as a run: the two matrix-product kernels, the host stretch that transposes and slices the
  weights, and the combining kernel, each entered from what the one before left.

  The contents of every unscoped buffer at each boundary are a fold from the launch memory: a kernel region
  replaces its windows' arrays by what its write-backs leave (its inputs as entered), the host stretch applies
  its operations.  The run ends with every unscoped buffer at the last stage of the fold; the argument arrays
  are read back through the fold to the launch memory (no stage writes one), and the result array is what the
  combining kernel's write-backs leave.
-/
import proofs.«108918_j70763881168941_1_alg».proof.Proof.KernelIdeal.Matmul0Data
import proofs.«108918_j70763881168941_1_alg».proof.Proof.KernelIdeal.Matmul1Data
import proofs.«108918_j70763881168941_1_alg».proof.Proof.KernelIdeal.Combine2Data
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After the first pallas_call: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call: its arrays at what its write-backs leave, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After the third pallas_call: its arrays at what its write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-- The combining kernel keeps the class invariant at every point. -/
theorem hin2 (V : (c : Dev nD) → (b : Ref sig .tc) → Buf (Elt F) ((c : Thread nD τ).loc b)) (c : Dev nD) :
    Pipeline.ΦA spec2 c ⊢ (dat2 V c).Φ 0 := BI.Entails.refl _
theorem hout2 (V : (c : Dev nD) → (b : Ref sig .tc) → Buf (Elt F) ((c : Thread nD τ).loc b)) (c : Dev nD) :
    (dat2 V c).Φ (Fin.last cfg2.N) ⊢ Pipeline.ΦA spec2 c := BI.Entails.refl _

/-- The same entailments with the class invariant spelt out: the scoped rest beside the generator register. -/
theorem hin0' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec0 c ∗ ∃ r, prngReg c r) ⊢ (dat0 V c).Φ 0 := hin0 V c
theorem hout0' (V : (c : Dev nD) → (b : Ref sig .tc) → Buf (Elt F) ((c : Thread nD τ).loc b)) (c : Dev nD) :
    (dat0 V c).Φ (Fin.last cfg0.N) ⊢ iprop(Pipeline.scopedRest (Ix := Unit) (Name := ℕ) (U := UR sig nD τ) (Lvl := ℕ) (Val := Elt F) spec0 c ∗ ∃ r, prngReg c r) := hout0 V c
theorem hin1' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec1 c ∗ ∃ r, prngReg c r) ⊢ (dat1 V c).Φ 0 := hin1 V c
theorem hout1' (V : (c : Dev nD) → (b : Ref sig .tc) → Buf (Elt F) ((c : Thread nD τ).loc b)) (c : Dev nD) :
    (dat1 V c).Φ (Fin.last cfg1.N) ⊢ iprop(Pipeline.scopedRest (Ix := Unit) (Name := ℕ) (U := UR sig nD τ) (Lvl := ℕ) (Val := Elt F) spec1 c ∗ ∃ r, prngReg c r) := hout1 V c
theorem hin2' (V : (c : Dev nD) → (b : Ref sig .tc) → Buf (Elt F) ((c : Thread nD τ).loc b)) (c : Dev nD) :
    iprop(Pipeline.scopedRest (Ix := Unit) (Name := ℕ) (U := UR sig nD τ) (Lvl := ℕ) (Val := Elt F) spec2 c ∗ ∃ r, prngReg c r) ⊢ (dat2 V c).Φ 0 := hin2 V c
theorem hout2' (V : (c : Dev nD) → (b : Ref sig .tc) → Buf (Elt F) ((c : Thread nD τ).loc b)) (c : Dev nD) :
    (dat2 V c).Φ (Fin.last cfg2.N) ⊢ iprop(Pipeline.scopedRest (Ix := Unit) (Name := ℕ) (U := UR sig nD τ) (Lvl := ℕ) (Val := Elt F) spec2 c ∗ ∃ r, prngReg c r) := hout2 V c

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    iintro ⟨Hp, -, Hr⟩
    iapply (hin0' (V0 m) c)
    isplitl [Hr]; · iexact Hr
    iexact Hp
  hout c := by
    rw [Pipeline.ownSems0_none, show (pdats m 0 c).Φ (Fin.last _) = (dat0 (V0 m) c).Φ (Fin.last cfg0.N) from rfl]
    have hback := hout0' (V0 m) c
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V1 m) c).Φ 0 from rfl]
    iintro ⟨Hp, -, Hr⟩
    iapply (hin1' (V1 m) c)
    isplitl [Hr]; · iexact Hr
    iexact Hp
  hout c := by
    rw [Pipeline.ownSems0_none, show (pdats m 1 c).Φ (Fin.last _) = (dat1 (V1 m) c).Φ (Fin.last cfg1.N) from rfl]
    have hback := hout1' (V1 m) c
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V3 m) c).Φ 0 from rfl]
    iintro ⟨Hp, -, Hr⟩
    iapply (hin2' (V3 m) c)
    isplitl [Hr]; · iexact Hr
    iexact Hp
  hout c := by
    rw [Pipeline.ownSems0_none, show (pdats m 2 c).Φ (Fin.last _) = (dat2 (V3 m) c).Φ (Fin.last cfg2.N) from rfl]
    have hback := hout2' (V3 m) c
    iintro H
    ihave H' := hback $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m), .host (hseg hostOps2 hostOps2_sub hostOps2_fresh' (W2 m)), .region (reg2 m) ]
theorem main_run (c : Dev nD) : main (F := F) c = Pipeline.Seg.run (segs m) := (main_chain c).trans (by chain_rfl)

set_option backward.isDefEq.respectTransparency.types false in
/-- Every weakly fair execution terminates, faulting nowhere, with every unscoped buffer at the fold's last stage. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KernelIdeal.Results.lean ====
/-
  Reading the run's last stage: each argument array walks back through the fold to the launch memory — the
  host stretch writes only its own seven results, a kernel region changes only its output window's array and
  hands every input array back as entered — and the result array is what the combining kernel's write-backs
  leave.  From this the frame claim follows at any instance of the float operations.
-/
import proofs.«108918_j70763881168941_1_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch writes none of these -/

theorem W3_main_arg0 (c : Dev nD) : W3 m c (Proc.devRef .tc main_arg0) = W2 m c (Proc.devRef .tc main_arg0) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_arg1 (c : Dev nD) : W3 m c (Proc.devRef .tc main_arg1) = W2 m c (Proc.devRef .tc main_arg1) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_arg2 (c : Dev nD) : W3 m c (Proc.devRef .tc main_arg2) = W2 m c (Proc.devRef .tc main_arg2) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_v0 (c : Dev nD) : W3 m c (Proc.devRef .tc main_v0) = W2 m c (Proc.devRef .tc main_v0) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))
theorem W3_main_v1 (c : Dev nD) : W3 m c (Proc.devRef .tc main_v1) = W2 m c (Proc.devRef .tc main_v1) :=
  StableHlo.after_of_forall_not_mem _ _ (List.forall_iff_forall_mem.mp (by
    simp only [hostOps2, List.Forall, StableHlo.nullary_writes, StableHlo.unary_writes, StableHlo.binary_writes, StableHlo.reshape_writes, Finset.mem_singleton]
    repeat' apply And.intro
    all_goals exact StableHlo.devRef_ne_of_ne (by decide)))

/-! ## The stages at the buffers the claims read -/

/-- x reaches every stage as launched: the first kernel reads it through window 1, the third through window 0. -/
theorem W1_main_arg0 (c : Dev nD) : W1 m c (Proc.devRef .tc main_arg0) = m ((c : Thread nD τ).loc main_arg0) :=
  (W1_arr m c 1).trans (((dat0 (V0 m) c).arrAt_in 1 rfl _).trans (A_eq0 (V0 m) c 1))
theorem W2_main_arg0 (c : Dev nD) : W2 m c (Proc.devRef .tc main_arg0) = m ((c : Thread nD τ).loc main_arg0) :=
  (W2_of_ne m c main_arg0 (by decide)).trans (W1_main_arg0 m c)
theorem W4_main_arg0 (c : Dev nD) : W4 m c (Proc.devRef .tc main_arg0) = m ((c : Thread nD τ).loc main_arg0) :=
  (W4_arr m c 0).trans (((dat2 (V3 m) c).arrAt_in 0 rfl _).trans ((A_eq2 (V3 m) c 0).trans ((W3_main_arg0 m c).trans (W2_main_arg0 m c))))

/-- L likewise: both matrix-product kernels read it through their window 0. -/
theorem W1_main_arg1 (c : Dev nD) : W1 m c (Proc.devRef .tc main_arg1) = m ((c : Thread nD τ).loc main_arg1) :=
  (W1_arr m c 0).trans (((dat0 (V0 m) c).arrAt_in 0 rfl _).trans (A_eq0 (V0 m) c 0))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (W1_main_arg1 m c)))
theorem W4_main_arg1 (c : Dev nD) : W4 m c (Proc.devRef .tc main_arg1) = m ((c : Thread nD τ).loc main_arg1) :=
  (W4_of_ne m c main_arg1 (by decide)).trans ((W3_main_arg1 m c).trans (W2_main_arg1 m c))

/-- W is no window's array of the matrix-product kernels and is only read by the host stretch. -/
theorem W2_main_arg2 (c : Dev nD) : W2 m c (Proc.devRef .tc main_arg2) = m ((c : Thread nD τ).loc main_arg2) :=
  (W2_of_ne m c main_arg2 (by decide)).trans (W1_of_ne m c main_arg2 (by decide))
theorem W4_main_arg2 (c : Dev nD) : W4 m c (Proc.devRef .tc main_arg2) = m ((c : Thread nD τ).loc main_arg2) :=
  (W4_of_ne m c main_arg2 (by decide)).trans ((W3_main_arg2 m c).trans (W2_main_arg2 m c))

/-- The first product as the later stages find it: what the first kernel's write-backs left. -/
theorem W2_main_v0 (c : Dev nD) : W2 m c (Proc.devRef .tc main_v0) = (dat0 (V0 m) c).arrAt 2 cfg0.N :=
  (W2_arr m c 1).trans (((dat1 (V1 m) c).arrAt_in 1 rfl _).trans ((A_eq1 (V1 m) c 1).trans (W1_arr m c 2)))
theorem W3_main_v0' (c : Dev nD) : W3 m c (Proc.devRef .tc main_v0) = (dat0 (V0 m) c).arrAt 2 cfg0.N :=
  (W3_main_v0 m c).trans (W2_main_v0 m c)
/-- The second product: what the second kernel's write-backs left. -/
theorem W3_main_v1' (c : Dev nD) : W3 m c (Proc.devRef .tc main_v1) = (dat1 (V1 m) c).arrAt 2 cfg1.N :=
  (W3_main_v1 m c).trans (W2_arr m c 2)
/-- The result array at the end. -/
theorem W4_main_v9 (c : Dev nD) : W4 m c (Proc.devRef .tc main_v9) = (dat2 (V3 m) c).arrAt 6 cfg2.N :=
  W4_arr m c 6

/-! ## The frame claim -/

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.Spec.lean ====
/-
  The function both programs compute, index by index over the extended reals.

  With x : [8192, 128], L : [8192, 8192], W : [3, 128, 128]:
      T1  = L · x                       T1[i, j]  = ∑ k, L[i, k] · x[k, j]
      LT1 = L · T1
      T2  = 2 · LT1 − x                 (pointwise)
      out[i, j] = (∑ k, x[i, k] · W[0, j, k] + ∑ k, T1[i, k] · W[1, j, k]) + ∑ k, T2[i, k] · W[2, j, k]
  — the second-order Chebyshev recurrence followed by one linear map per order, each weight matrix applied
  transposed.  The literal 2 is kept as the float word both programs print; it is never evaluated.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 128]⟩
abbrev SL : Shape := ⟨2, ![8192, 8192]⟩
abbrev SW : Shape := ⟨3, ![3, 128, 128]⟩

/-- The row and the column of an index of an [8192, 128] array. -/
abbrev row (j : SX.Idx) : Fin 8192 := ⟨(j 0).val, (j 0).isLt⟩
abbrev col (j : SX.Idx) : Fin 128 := ⟨(j 1).val, (j 1).isLt⟩

/-- The product of the square operator with a tall matrix: (L · R)[i, j] = ∑ k, L[i, k] · R[k, j]. -/
def lmul (L : SL.Idx → EReal) (R : SX.Idx → EReal) : SX.Idx → EReal :=
  fun j => ∑ k : Fin 8192, L (ix2 (row j) k) * R (ix2 k (col j))

/-- One order's linear map, the weight applied transposed: (T · W[n]ᵀ)[i, j] = ∑ k, T[i, k] · W[n, j, k]. -/
def wmul (n : Fin 3) (T : SX.Idx → EReal) (W : SW.Idx → EReal) : SX.Idx → EReal :=
  fun j => ∑ k : Fin 128, T (ix2 (row j) k) * W (ix3 n (col j) k)

/-- The recurrence's factor 2, as the float word both programs carry. -/
def two : EReal := Ideal.ofBits .f32 0x40000000#32

/-- The second-order term from the first-order one pushed through the operator once more. -/
def cheb2 (x LT1 : SX.Idx → EReal) : SX.Idx → EReal := fun j => two * LT1 j - x j

/-- A tall matrix times a (128 × 128) matrix: (T · A)[i, j] = ∑ k, T[i, k] · A[k, j]. -/
abbrev SM : Shape := ⟨2, ![128, 128]⟩
def rmul (T : SX.Idx → EReal) (A : SM.Idx → EReal) : SX.Idx → EReal :=
  fun j => ∑ k : Fin 128, T (ix2 (row j) k) * A (ix2 k (col j))

/-- Slice `n` of the weights, transposed: (W[n]ᵀ)[k, j] = W[n, j, k]. -/
def wT (n : Fin 3) (W : SW.Idx → EReal) : SM.Idx → EReal :=
  fun a => W (ix3 n ⟨(a 1).val, (a 1).isLt⟩ ⟨(a 0).val, (a 0).isLt⟩)

/-- The final combination from the three orders and three (already transposed) weight matrices. -/
def comb (x T1 LT1 : SX.Idx → EReal) (A0 A1 A2 : SM.Idx → EReal) : SX.Idx → EReal :=
  fun j => (rmul x A0 j + rmul T1 A1 j) + rmul (cheb2 x LT1) A2 j

/-- The whole result. -/
def G (x : SX.Idx → EReal) (L : SL.Idx → EReal) (W : SW.Idx → EReal) : SX.Idx → EReal :=
  fun j => (wmul 0 x W j + wmul 1 (lmul L x) W j) + wmul 2 (cheb2 x (lmul L (lmul L x))) W j

/-- The result is the combination of the orders with the transposed weight slices. -/
theorem G_eq_comb (x : SX.Idx → EReal) (L : SL.Idx → EReal) (W : SW.Idx → EReal) :
    G x L W = comb x (lmul L x) (lmul L (lmul L x)) (wT 0 W) (wT 1 W) (wT 2 W) := rfl

end Cert.Spec

end
-- ==== Proof.KernelIdeal.Matmul0Value.lean ====
/-
  What the first matrix-product kernel leaves in its result array, over the extended reals: the whole product
  of the (8192 × 8192) operator with the (8192 × 128) operand.  Each (1024 × 128) row block of the result is
  written back once, at the last of its four column-block points, with the accumulated sum of four block
  products; a sum over 8192 is the sum of its four consecutive stretches of 2048.
-/
import proofs.«108918_j70763881168941_1_alg».proof.Proof.KernelIdeal.Matmul0Data
import proofs.«108918_j70763881168941_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's arithmetic at an element -/

/-- The dimension numbers of the block product: (1024 × 2048) by (2048 × 128), contracting the 2048. -/
abbrev blockDims := dot_S1024x2048_S2048x128_S1024x128_1_0_0_1_n_n

/-- Where the block product reads its operands for output element j and contraction index q: the left operand at
    (row of j, q), the right operand at (q, column of j). -/
theorem blockDims_lhs_row (j : S1024x128.Idx) (q : blockDims.contr.Idx) : (blockDims.lhsIdx j q 0).val = (j 0).val := by
  unfold DotDims.lhsIdx
  rw [dif_neg (show ¬(0 : Fin S1024x2048.rank) ∈ blockDims.lhsBatch by decide), dif_pos (show (0 : Fin S1024x2048.rank) ∈ blockDims.lhsNonContracting by decide)]
  rfl
theorem blockDims_lhs_col (j : S1024x128.Idx) (q : blockDims.contr.Idx) : (blockDims.lhsIdx j q 1).val = (q ⟨0, by decide⟩).val :=
  blockDims.lhsIdx_val_of_single rfl j q
theorem blockDims_rhs_row (j : S1024x128.Idx) (q : blockDims.contr.Idx) : (blockDims.rhsIdx j q 0).val = (q ⟨0, by decide⟩).val :=
  blockDims.rhsIdx_val_of_single rfl j q
theorem blockDims_rhs_col (j : S1024x128.Idx) (q : blockDims.contr.Idx) : (blockDims.rhsIdx j q 1).val = (j 1).val := by
  unfold DotDims.rhsIdx
  rw [dif_neg (show ¬(1 : Fin S2048x128.rank) ∈ blockDims.rhsBatch by decide), dif_pos (show (1 : Fin S2048x128.rank) ∈ blockDims.rhsNonContracting by decide)]
  rfl

/-- The block product into a zero accumulator, at row p and column q: the sum over the block's 2048 columns. -/
theorem blockProduct_apply (x0 : FVec Ideal S1024x2048 .bf16) (x1 : FVec Ideal S2048x128 .bf16) (p : Fin 1024) (q : Fin 128) :
    matmul blockDims none x0 x1 (constant S1024x128 .f32 0x00000000#32) (ix2 p q) = ∑ k : Fin 2048, x0 (ix2 p k) * x1 (ix2 k q) := by
  simp only [matmul]
  rw [Ideal.matmul_constant_zero_apply, ← Equiv.sum_comp (ValueIdx.contrEquiv1 blockDims 2048 rfl rfl).symm]
  refine Finset.sum_congr rfl fun k _ => ?_
  have hk := ValueIdx.contrEquiv1_symm_val blockDims 2048 rfl rfl k
  have el : blockDims.lhsIdx (ix2 p q) ((ValueIdx.contrEquiv1 blockDims 2048 rfl rfl).symm k) = ix2 p k := funext fun a => Fin.ext (by
    match a with
    | ⟨0, _⟩ => exact blockDims_lhs_row _ _
    | ⟨1, _⟩ => exact (blockDims_lhs_col _ _).trans hk)
  have er : blockDims.rhsIdx (ix2 p q) ((ValueIdx.contrEquiv1 blockDims 2048 rfl rfl).symm k) = ix2 k q := funext fun a => Fin.ext (by
    match a with
    | ⟨0, _⟩ => exact (blockDims_rhs_row _ _).trans hk
    | ⟨1, _⟩ => exact blockDims_rhs_col _ _)
  rw [el, er]

/-- One point's update of the accumulator, at an element. -/
theorem mm0_update_apply (x0 : Vec Ideal S1024x2048 .f32) (x1 : Vec Ideal S2048x128 .f32) (a : Vec Ideal S1024x128 .f32) (p : Fin 1024) (q : Fin 128) :
    k0_pay2 x0 x1 a (ix2 p q) = a (ix2 p q) + ∑ k : Fin 2048, x0 (ix2 p k) * x1 (ix2 k q) := by
  unfold k0_pay2
  refine (congrFun (shapeCast_self _ _) (ix2 p q)).trans ?_
  refine (addf_apply _ _ (ix2 p q)).trans ?_
  refine congrArg (a (ix2 p q) + ·) ((blockProduct_apply _ _ p q).trans ?_)
  -- a change of float format is the identity at an element, and so is a reshape to the same shape
  first
    | rfl
    | (simp only [shapeCast_self]; rfl)

/-- The accumulator's restart value is zero everywhere. -/
theorem mm0_restart_apply (j : S1024x128.Idx) : k0_pay1 (F := Ideal) j = 0 := by
  unfold k0_pay1
  refine (congrFun (shapeCast_self _ _) j).trans ?_
  exact Ideal.ofBits_zero_f32

/-! ## A sum over 8192 terms as four stretches of 2048 -/

/-- Stretch b of a sum over 8192 terms: the 2048 terms from 2048·b on. -/
def stretch2048 (f : Fin 8192 → EReal) (b : Fin 4) : EReal :=
  ∑ k : Fin 2048, f ⟨2048 * b.val + k.val, by have := b.isLt; have := k.isLt; omega⟩

/-- The whole sum is the four stretches added in order onto zero (addition of extended reals is associative). -/
theorem sum_eq_four_stretches (f : Fin 8192 → EReal) :
    ∑ k : Fin 8192, f k = (((0 + stretch2048 f 0) + stretch2048 f 1) + stretch2048 f 2) + stretch2048 f 3 := by
  have e : ∑ k : Fin 8192, f k = ∑ b : Fin 4, stretch2048 f b := by
    rw [← Equiv.sum_comp (finProdFinEquiv : Fin 4 × Fin 2048 ≃ Fin 8192) f, Fintype.sum_prod_type]
    refine Finset.sum_congr rfl fun b _ => Finset.sum_congr rfl fun k _ => congrArg f (Fin.ext ?_)
    show k.val + 2048 * b.val = 2048 * b.val + k.val
    omega
  rw [e, Fin.sum_univ_four, zero_add]

/-! ## The windows' blocks, element by element -/

variable (V : (c : Dev nD) → (b : Ref sig .tc) → Buf (Elt Ideal) ((c : Thread nD τ).loc b))

/-- The operator and the operand as the region finds them, and the product claimed of them. -/
abbrev mm0_L (c : Dev nD) : Cert.Spec.SL.Idx → EReal := V c main_arg1
abbrev mm0_X (c : Dev nD) : Cert.Spec.SX.Idx → EReal := V c main_arg0

/-- The index maps over the grid: point t = 4·i + k reads block (i, k) of the operator and block (k, 0) of the
    operand, and owns block (i, 0) of the result. -/
theorem mm0_blockIdx : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Element (p, k) of the operator's block at point t is element (1024·(t/4) + p, 2048·(t%4) + k) of the operator. -/
theorem mm0_lblk_apply (c : Dev nD) (t : Fin cfg0.N) (p : Fin 1024) (k : Fin 2048) (r kk : Fin 8192)
    (hr : r.val = 1024 * (t.val / 4) + p.val) (hk : kk.val = 2048 * (t.val % 4) + k.val) :
    lblk0 V c t (ix2 p k) = mm0_L V c (ix2 r kk) := by
  obtain ⟨e0, e1, -⟩ := mm0_blockIdx t
  unfold lblk0 iblk0
  rw [View.read_apply]
  show V c main_arg1 _ = V c main_arg1 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 2048 + 1 * k.val = kk.val; rw [e1, hk]; omega

/-- Element (k, q) of the operand's block at point t is element (2048·(t%4) + k, q) of the operand. -/
theorem mm0_rblk_apply (c : Dev nD) (t : Fin cfg0.N) (k : Fin 2048) (q : Fin 128) (kk : Fin 8192)
    (hk : kk.val = 2048 * (t.val % 4) + k.val) :
    rblk0 V c t (ix2 k q) = mm0_X V c (ix2 kk q) := by
  obtain ⟨-, -, e2, e3, -⟩ := mm0_blockIdx t
  unfold rblk0 iblk0
  rw [View.read_apply]
  show V c main_arg0 _ = V c main_arg0 _
  congr 1
  funext a
  apply Fin.ext
  match a with
  | ⟨0, _⟩ => show win0_1.index t (0 : Fin 2) * 2048 + 1 * k.val = kk.val; rw [e2, hk]; omega
  | ⟨1, _⟩ => show win0_1.index t (1 : Fin 2) * 128 + 1 * q.val = q.val; rw [e3]; omega

/-! ## The accumulator along a block row -/

/-- The terms of the product's element (r, q): operator row r against operand column q. -/
abbrev mm0_terms (c : Dev nD) (r : Fin 8192) (q : Fin 128) : Fin 8192 → EReal :=
  fun k => mm0_L V c (ix2 r k) * mm0_X V c (ix2 k q)

/-- What point t adds to the accumulator's element (p, q): stretch t % 4 of the terms of element
    (1024·(t/4) + p, q) of the product. -/
theorem mm0_step_apply (c : Dev nD) (t : Fin cfg0.N) (acc : Vec Ideal S1024x128 .f32) (p : Fin 1024) (q : Fin 128)
    (r : Fin 8192) (b : Fin 4) (hr : r.val = 1024 * (t.val / 4) + p.val) (hb : b.val = t.val % 4) :
    k0_pay2 (lblk0 V c t) (rblk0 V c t) acc (ix2 p q) = acc (ix2 p q) + stretch2048 (mm0_terms V c r q) b := by
  refine (mm0_update_apply (lblk0 V c t) (rblk0 V c t) acc p q).trans ?_
  refine congrArg (acc (ix2 p q) + ·) (Finset.sum_congr rfl fun k _ => ?_)
  have hk : (⟨2048 * b.val + k.val, by have := b.isLt; have := k.isLt; omega⟩ : Fin 8192).val = 2048 * (t.val % 4) + k.val := by
    show 2048 * b.val + k.val = _; rw [hb]
  show lblk0 V c t (ix2 p k) * rblk0 V c t (ix2 k q) = mm0_L V c (ix2 r _) * mm0_X V c (ix2 _ q)
  rw [mm0_lblk_apply V c t p k r _ hr hk, mm0_rblk_apply V c t k q _ hk]

/-- After the last point of a block row the accumulator's element (p, q) holds the four stretches, added in
    order onto zero, of element (1024·i + p, q) of the product (n = 4·i the row's first point). -/
theorem mm0_acc_last (c : Dev nD) (n : ℕ) (hn : n % 4 = 0) (h : n + 3 < cfg0.N) (p : Fin 1024) (q : Fin 128)
    (r : Fin 8192) (hr : r.val = 1024 * (n / 4) + p.val) :
    accAt0 V c (n + 3) h (ix2 p q)
      = (((0 + stretch2048 (mm0_terms V c r q) 0) + stretch2048 (mm0_terms V c r q) 1) + stretch2048 (mm0_terms V c r q) 2)
          + stretch2048 (mm0_terms V c r q) 3 := by
  have h0 : n < cfg0.N := by omega
  have h1 : n + 1 < cfg0.N := by omega
  have h2 : n + 2 < cfg0.N := by omega
  have e0 : accAt0 V c n h0 = k0_pay2 (lblk0 V c ⟨n, h0⟩) (rblk0 V c ⟨n, h0⟩) (k0_pay1 (F := Ideal)) :=
    accAt0_reset V c ⟨n, h0⟩ hn
  have e1 : accAt0 V c (n + 1) h1 = k0_pay2 (lblk0 V c ⟨n + 1, h1⟩) (rblk0 V c ⟨n + 1, h1⟩) (accAt0 V c n h0) :=
    accAt0_step V c ⟨n + 1, h1⟩ (by show ¬(n + 1) % 4 = 0; omega)
  have e2 : accAt0 V c (n + 2) h2 = k0_pay2 (lblk0 V c ⟨n + 2, h2⟩) (rblk0 V c ⟨n + 2, h2⟩) (accAt0 V c (n + 1) h1) :=
    accAt0_step V c ⟨n + 2, h2⟩ (by show ¬(n + 2) % 4 = 0; omega)
  have e3 : accAt0 V c (n + 3) h = k0_pay2 (lblk0 V c ⟨n + 3, h⟩) (rblk0 V c ⟨n + 3, h⟩) (accAt0 V c (n + 2) h2) :=
    accAt0_step V c ⟨n + 3, h⟩ (by show ¬(n + 3) % 4 = 0; omega)
  rw [e3, mm0_step_apply V c ⟨n + 3, h⟩ (accAt0 V c (n + 2) h2) p q r 3 (by show r.val = 1024 * ((n + 3) / 4) + p.val; omega)
      (by show 3 = (n + 3) % 4; omega),
    e2, mm0_step_apply V c ⟨n + 2, h2⟩ (accAt0 V c (n + 1) h1) p q r 2 (by show r.val = 1024 * ((n + 2) / 4) + p.val; omega)
      (by show 2 = (n + 2) % 4; omega),
    e1, mm0_step_apply V c ⟨n + 1, h1⟩ (accAt0 V c n h0) p q r 1 (by show r.val = 1024 * ((n + 1) / 4) + p.val; omega)
      (by show 1 = (n + 1) % 4; omega),
    e0, mm0_step_apply V c ⟨n, h0⟩ (k0_pay1 (F := Ideal)) p q r 0 (by show r.val = 1024 * (n / 4) + p.val; omega)
      (by show 0 = n % 4; omega),
    mm0_restart_apply]

/-! ## From the blocks to the array -/

/-- The accumulator after a point does not depend on how the point's number is written. -/
theorem mm0_acc_of_eq (c : Dev nD) (a b : ℕ) (e : a = b) (ha : a < cfg0.N) (hb : b < cfg0.N) :
    accAt0 V c a ha = accAt0 V c b hb := by
  subst e; rfl

/-- What the last point t of a block row writes back is block t of the product of the operator and the operand. -/
theorem mm0_flushed_eq (c : Dev nD) (t : Fin cfg0.N) (hf : (cfg0.win 2).flush t = true) :
    (dat0 (F := Ideal) V c).flushed 2 t
      = ((cfg0.win 2).blk t).view.read (Elt Ideal) (Cert.Spec.lmul (mm0_L V c) (mm0_X V c)) := by
  have h3 : t.val % 4 = 3 := (flush0_2 t).mp hf
  have hN : cfg0.N = 32 := N_0
  have ht : t.val < cfg0.N := t.isLt
  obtain ⟨-, -, -, -, e4, e5⟩ := mm0_blockIdx t
  show (cfg0.win 2).cut (grid0.coords t) ((dat0 (F := Ideal) V c).after 2 t) = _
  rw [after0_2]
  funext j
  obtain ⟨p, hp⟩ : ∃ p : Fin 1024, p.val = (j 0).val := ⟨⟨(j 0).val, (j 0).isLt⟩, rfl⟩
  obtain ⟨q, hq⟩ : ∃ q : Fin 128, q.val = (j 1).val := ⟨⟨(j 1).val, (j 1).isLt⟩, rfl⟩
  obtain ⟨r, hr⟩ : ∃ r : Fin 8192, r.val = 1024 * ((t.val - 3) / 4) + p.val :=
    ⟨⟨1024 * ((t.val - 3) / 4) + p.val, by have := p.isLt; omega⟩, rfl⟩
  have hj : ((cfg0.win 2).xinj (grid0.coords t) j : S1024x128.Idx) = ix2 p q := funext fun a => Fin.ext (by
    match a with
    | ⟨0, _⟩ => exact hp.symm
    | ⟨1, _⟩ => exact hq.symm)
  refine (congrArg (accAt0 V c t.val t.isLt) hj).trans ?_
  rw [View.read_apply]
  show _ = ∑ k : Fin 8192, mm0_L V c (ix2 (Cert.Spec.row (((cfg0.win 2).blk t).view.emb j)) k)
      * mm0_X V c (ix2 k (Cert.Spec.col (((cfg0.win 2).blk t).view.emb j)))
  have hrow : Cert.Spec.row (((cfg0.win 2).blk t).view.emb j) = r := Fin.ext (by
    show win0_2.index t (0 : Fin 2) * 1024 + 1 * (j 0).val = r.val
    rw [e4, hr, hp]; omega)
  have hcol : Cert.Spec.col (((cfg0.win 2).blk t).view.emb j) = q := Fin.ext (by
    show win0_2.index t (1 : Fin 2) * 128 + 1 * (j 1).val = q.val
    rw [e5, hq]; omega)
  rw [hrow, hcol]
  refine Eq.trans ?_ (sum_eq_four_stretches (mm0_terms V c r q)).symm
  rw [mm0_acc_of_eq V c t.val (t.val - 3 + 3) (by omega) t.isLt (by omega)]
  exact mm0_acc_last V c (t.val - 3) (by omega) (by omega) p q r hr

/-- An index of the result is in point t's block when each coordinate is in the block's range on its axis. -/
theorem mm0_mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Row r of the result lies in the block written back at the last point of block row r / 1024. -/
theorem mm0_cover (i : S8192x128.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 128 := (i 1).isLt
  obtain ⟨t, ht⟩ : ∃ t : Fin cfg0.N, t.val = 4 * ((i 0).val / 1024) + 3 := ⟨⟨4 * ((i 0).val / 1024) + 3, by omega⟩, rfl⟩
  obtain ⟨-, -, -, -, e4, e5⟩ := mm0_blockIdx t
  refine ⟨t, (flush0_2 t).mpr (by omega), ?_⟩
  rw [mm0_mem_blk]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 128 ≤ (i 1).val ∧ (i 1).val < win0_2.index t (1 : Fin 2) * 128 + 128
    rw [e5]; omega

/-- The result array ends holding the whole product. -/
theorem final0 (V : (c : Dev nD) → (b : Ref sig .tc) → Buf (Elt Ideal) ((c : Thread nD τ).loc b)) (c : Dev nD) :
    (dat0 (F := Ideal) V c).arrAt 2 cfg0.N = Cert.Spec.lmul (V c main_arg1) (V c main_arg0) :=
  (dat0 (F := Ideal) V c).arrAt_eq_of_cover 2 (Cert.Spec.lmul (V c main_arg1) (V c main_arg0))
    (fun t hf => mm0_flushed_eq V c t hf) mm0_cover

end Cert.KernelIdeal.Hand

end
-- ==== Proof.KernelIdeal.Matmul1Value.lean ====
/-
  What the second matrix-product kernel leaves in its result array, over the extended reals: the whole product
  of the (8192 × 8192) operator with the (8192 × 128) operand.  Each (1024 × 128) row block of the result is
  written back once, at the last of its four column-block points, with the accumulated sum of four block
  products; a sum over 8192 is the sum of its four consecutive stretches of 2048.
-/
import proofs.«108918_j70763881168941_1_alg».proof.Proof.KernelIdeal.Matmul1Data
import proofs.«108918_j70763881168941_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's arithmetic at an element -/

/-- The dimension numbers of the block product: (1024 × 2048) by (2048 × 128), contracting the 2048. -/
abbrev blockDims1 := dot_S1024x2048_S2048x128_S1024x128_1_0_0_1_n_n

/-- Where the block product reads its operands for output element j and contraction index q: the left operand at
    (row of j, q), the right operand at (q, column of j). -/
theorem blockDims1_lhs_row (j : S1024x128.Idx) (q : blockDims1.contr.Idx) : (blockDims1.lhsIdx j q 0).val = (j 0).val := by
  unfold DotDims.lhsIdx
  rw [dif_neg (show ¬(0 : Fin S1024x2048.rank) ∈ blockDims1.lhsBatch by decide), dif_pos (show (0 : Fin S1024x2048.rank) ∈ blockDims1.lhsNonContracting by decide)]
  rfl
theorem blockDims1_lhs_col (j : S1024x128.Idx) (q : blockDims1.contr.Idx) : (blockDims1.lhsIdx j q 1).val = (q ⟨0, by decide⟩).val :=
  blockDims1.lhsIdx_val_of_single rfl j q
theorem blockDims1_rhs_row (j : S1024x128.Idx) (q : blockDims1.contr.Idx) : (blockDims1.rhsIdx j q 0).val = (q ⟨0, by decide⟩).val :=
  blockDims1.rhsIdx_val_of_single rfl j q
theorem blockDims1_rhs_col (j : S1024x128.Idx) (q : blockDims1.contr.Idx) : (blockDims1.rhsIdx j q 1).val = (j 1).val := by
  unfold DotDims.rhsIdx
  rw [dif_neg (show ¬(1 : Fin S2048x128.rank) ∈ blockDims1.rhsBatch by decide), dif_pos (show (1 : Fin S2048x128.rank) ∈ blockDims1.rhsNonContracting by decide)]
  rfl

/-- The block product into a zero accumulator, at row p and column q: the sum over the block's 2048 columns. -/
theorem blockProduct1_apply (x0 : FVec Ideal S1024x2048 .bf16) (x1 : FVec Ideal S2048x128 .bf16) (p : Fin 1024) (q : Fin 128) :
    matmul blockDims1 none x0 x1 (constant S1024x128 .f32 0x00000000#32) (ix2 p q) = ∑ k : Fin 2048, x0 (ix2 p k) * x1 (ix2 k q) := by
  simp only [matmul]
  rw [Ideal.matmul_constant_zero_apply, ← Equiv.sum_comp (ValueIdx.contrEquiv1 blockDims1 2048 rfl rfl).symm]
  refine Finset.sum_congr rfl fun k _ => ?_
  have hk := ValueIdx.contrEquiv1_symm_val blockDims1 2048 rfl rfl k
  have el : blockDims1.lhsIdx (ix2 p q) ((ValueIdx.contrEquiv1 blockDims1 2048 rfl rfl).symm k) = ix2 p k := funext fun a => Fin.ext (by
    match a with
    | ⟨0, _⟩ => exact blockDims1_lhs_row _ _
    | ⟨1, _⟩ => exact (blockDims1_lhs_col _ _).trans hk)
  have er : blockDims1.rhsIdx (ix2 p q) ((ValueIdx.contrEquiv1 blockDims1 2048 rfl rfl).symm k) = ix2 k q := funext fun a => Fin.ext (by
    match a with
    | ⟨0, _⟩ => exact (blockDims1_rhs_row _ _).trans hk
    | ⟨1, _⟩ => exact blockDims1_rhs_col _ _)
  rw [el, er]

/-- One point's update of the accumulator, at an element. -/
theorem mm1_update_apply (x0 : Vec Ideal S1024x2048 .f32) (x1 : Vec Ideal S2048x128 .f32) (a : Vec Ideal S1024x128 .f32) (p : Fin 1024) (q : Fin 128) :
    k1_pay2 x0 x1 a (ix2 p q) = a (ix2 p q) + ∑ k : Fin 2048, x0 (ix2 p k) * x1 (ix2 k q) := by
  unfold k1_pay2
  refine (congrFun (shapeCast_self _ _) (ix2 p q)).trans ?_
  refine (addf_apply _ _ (ix2 p q)).trans ?_
  refine congrArg (a (ix2 p q) + ·) ((blockProduct1_apply _ _ p q).trans ?_)
  -- a change of float format is the identity at an element, and so is a reshape to the same shape
  first
    | rfl
    | (simp only [shapeCast_self]; rfl)

/-- The accumulator's restart value is zero everywhere. -/
theorem mm1_restart_apply (j : S1024x128.Idx) : k1_pay1 (F := Ideal) j = 0 := by
  unfold k1_pay1
  refine (congrFun (shapeCast_self _ _) j).trans ?_
  exact Ideal.ofBits_zero_f32

/-! ## A sum over 8192 terms as four stretches of 2048 -/

/-- Stretch b of a sum over 8192 terms: the 2048 terms from 2048·b on. -/
def stretch2048' (f : Fin 8192 → EReal) (b : Fin 4) : EReal :=
  ∑ k : Fin 2048, f ⟨2048 * b.val + k.val, by have := b.isLt; have := k.isLt; omega⟩

/-- The whole sum is the four stretches added in order onto zero (addition of extended reals is associative). -/
theorem sum_eq_four_stretches' (f : Fin 8192 → EReal) :
    ∑ k : Fin 8192, f k = (((0 + stretch2048' f 0) + stretch2048' f 1) + stretch2048' f 2) + stretch2048' f 3 := by
  have e : ∑ k : Fin 8192, f k = ∑ b : Fin 4, stretch2048' f b := by
    rw [← Equiv.sum_comp (finProdFinEquiv : Fin 4 × Fin 2048 ≃ Fin 8192) f, Fintype.sum_prod_type]
    refine Finset.sum_congr rfl fun b _ => Finset.sum_congr rfl fun k _ => congrArg f (Fin.ext ?_)
    show k.val + 2048 * b.val = 2048 * b.val + k.val
    omega
  rw [e, Fin.sum_univ_four, zero_add]

/-! ## The windows' blocks, element by element -/

variable (V : (c : Dev nD) → (b : Ref sig .tc) → Buf (Elt Ideal) ((c : Thread nD τ).loc b))

/-- The operator and the operand as the region finds them, and the product claimed of them. -/
abbrev mm1_L (c : Dev nD) : Cert.Spec.SL.Idx → EReal := V c main_arg1
abbrev mm1_X (c : Dev nD) : Cert.Spec.SX.Idx → EReal := V c main_v0

/-- The index maps over the grid: point t = 4·i + k reads block (i, k) of the operator and block (k, 0) of the
    operand, and owns block (i, 0) of the result. -/
theorem mm1_blockIdx : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Element (p, k) of the operator's block at point t is element (1024·(t/4) + p, 2048·(t%4) + k) of the operator. -/
theorem mm1_lblk_apply (c : Dev nD) (t : Fin cfg1.N) (p : Fin 1024) (k : Fin 2048) (r kk : Fin 8192)
    (hr : r.val = 1024 * (t.val / 4) + p.val) (hk : kk.val = 2048 * (t.val % 4) + k.val) :
    lblk1 V c t (ix2 p k) = mm1_L V c (ix2 r kk) := by
  obtain ⟨e0, e1, -⟩ := mm1_blockIdx t
  unfold lblk1 iblk1
  rw [View.read_apply]
  show V c main_arg1 _ = V c main_arg1 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 2048 + 1 * k.val = kk.val; rw [e1, hk]; omega

/-- Element (k, q) of the operand's block at point t is element (2048·(t%4) + k, q) of the operand. -/
theorem mm1_rblk_apply (c : Dev nD) (t : Fin cfg1.N) (k : Fin 2048) (q : Fin 128) (kk : Fin 8192)
    (hk : kk.val = 2048 * (t.val % 4) + k.val) :
    rblk1 V c t (ix2 k q) = mm1_X V c (ix2 kk q) := by
  obtain ⟨-, -, e2, e3, -⟩ := mm1_blockIdx t
  unfold rblk1 iblk1
  rw [View.read_apply]
  show V c main_v0 _ = V c main_v0 _
  congr 1
  funext a
  apply Fin.ext
  match a with
  | ⟨0, _⟩ => show win1_1.index t (0 : Fin 2) * 2048 + 1 * k.val = kk.val; rw [e2, hk]; omega
  | ⟨1, _⟩ => show win1_1.index t (1 : Fin 2) * 128 + 1 * q.val = q.val; rw [e3]; omega

/-! ## The accumulator along a block row -/

/-- The terms of the product's element (r, q): operator row r against operand column q. -/
abbrev mm1_terms (c : Dev nD) (r : Fin 8192) (q : Fin 128) : Fin 8192 → EReal :=
  fun k => mm1_L V c (ix2 r k) * mm1_X V c (ix2 k q)

/-- What point t adds to the accumulator's element (p, q): stretch t % 4 of the terms of element
    (1024·(t/4) + p, q) of the product. -/
theorem mm1_step_apply (c : Dev nD) (t : Fin cfg1.N) (acc : Vec Ideal S1024x128 .f32) (p : Fin 1024) (q : Fin 128)
    (r : Fin 8192) (b : Fin 4) (hr : r.val = 1024 * (t.val / 4) + p.val) (hb : b.val = t.val % 4) :
    k1_pay2 (lblk1 V c t) (rblk1 V c t) acc (ix2 p q) = acc (ix2 p q) + stretch2048' (mm1_terms V c r q) b := by
  refine (mm1_update_apply (lblk1 V c t) (rblk1 V c t) acc p q).trans ?_
  refine congrArg (acc (ix2 p q) + ·) (Finset.sum_congr rfl fun k _ => ?_)
  have hk : (⟨2048 * b.val + k.val, by have := b.isLt; have := k.isLt; omega⟩ : Fin 8192).val = 2048 * (t.val % 4) + k.val := by
    show 2048 * b.val + k.val = _; rw [hb]
  show lblk1 V c t (ix2 p k) * rblk1 V c t (ix2 k q) = mm1_L V c (ix2 r _) * mm1_X V c (ix2 _ q)
  rw [mm1_lblk_apply V c t p k r _ hr hk, mm1_rblk_apply V c t k q _ hk]

/-- After the last point of a block row the accumulator's element (p, q) holds the four stretches, added in
    order onto zero, of element (1024·i + p, q) of the product (n = 4·i the row's first point). -/
theorem mm1_acc_last (c : Dev nD) (n : ℕ) (hn : n % 4 = 0) (h : n + 3 < cfg1.N) (p : Fin 1024) (q : Fin 128)
    (r : Fin 8192) (hr : r.val = 1024 * (n / 4) + p.val) :
    accAt1 V c (n + 3) h (ix2 p q)
      = (((0 + stretch2048' (mm1_terms V c r q) 0) + stretch2048' (mm1_terms V c r q) 1) + stretch2048' (mm1_terms V c r q) 2)
          + stretch2048' (mm1_terms V c r q) 3 := by
  have h0 : n < cfg1.N := by omega
  have h1 : n + 1 < cfg1.N := by omega
  have h2 : n + 2 < cfg1.N := by omega
  have e0 : accAt1 V c n h0 = k1_pay2 (lblk1 V c ⟨n, h0⟩) (rblk1 V c ⟨n, h0⟩) (k1_pay1 (F := Ideal)) :=
    accAt1_reset V c ⟨n, h0⟩ hn
  have e1 : accAt1 V c (n + 1) h1 = k1_pay2 (lblk1 V c ⟨n + 1, h1⟩) (rblk1 V c ⟨n + 1, h1⟩) (accAt1 V c n h0) :=
    accAt1_step V c ⟨n + 1, h1⟩ (by show ¬(n + 1) % 4 = 0; omega)
  have e2 : accAt1 V c (n + 2) h2 = k1_pay2 (lblk1 V c ⟨n + 2, h2⟩) (rblk1 V c ⟨n + 2, h2⟩) (accAt1 V c (n + 1) h1) :=
    accAt1_step V c ⟨n + 2, h2⟩ (by show ¬(n + 2) % 4 = 0; omega)
  have e3 : accAt1 V c (n + 3) h = k1_pay2 (lblk1 V c ⟨n + 3, h⟩) (rblk1 V c ⟨n + 3, h⟩) (accAt1 V c (n + 2) h2) :=
    accAt1_step V c ⟨n + 3, h⟩ (by show ¬(n + 3) % 4 = 0; omega)
  rw [e3, mm1_step_apply V c ⟨n + 3, h⟩ (accAt1 V c (n + 2) h2) p q r 3 (by show r.val = 1024 * ((n + 3) / 4) + p.val; omega)
      (by show 3 = (n + 3) % 4; omega),
    e2, mm1_step_apply V c ⟨n + 2, h2⟩ (accAt1 V c (n + 1) h1) p q r 2 (by show r.val = 1024 * ((n + 2) / 4) + p.val; omega)
      (by show 2 = (n + 2) % 4; omega),
    e1, mm1_step_apply V c ⟨n + 1, h1⟩ (accAt1 V c n h0) p q r 1 (by show r.val = 1024 * ((n + 1) / 4) + p.val; omega)
      (by show 1 = (n + 1) % 4; omega),
    e0, mm1_step_apply V c ⟨n, h0⟩ (k1_pay1 (F := Ideal)) p q r 0 (by show r.val = 1024 * (n / 4) + p.val; omega)
      (by show 0 = n % 4; omega),
    mm1_restart_apply]

/-! ## From the blocks to the array -/

/-- The accumulator after a point does not depend on how the point's number is written. -/
theorem mm1_acc_of_eq (c : Dev nD) (a b : ℕ) (e : a = b) (ha : a < cfg1.N) (hb : b < cfg1.N) :
    accAt1 V c a ha = accAt1 V c b hb := by
  subst e; rfl

/-- What the last point t of a block row writes back is block t of the product of the operator and the operand. -/
theorem mm1_flushed_eq (c : Dev nD) (t : Fin cfg1.N) (hf : (cfg1.win 2).flush t = true) :
    (dat1 (F := Ideal) V c).flushed 2 t
      = ((cfg1.win 2).blk t).view.read (Elt Ideal) (Cert.Spec.lmul (mm1_L V c) (mm1_X V c)) := by
  have h3 : t.val % 4 = 3 := (flush1_2 t).mp hf
  have hN : cfg1.N = 32 := N_1
  have ht : t.val < cfg1.N := t.isLt
  obtain ⟨-, -, -, -, e4, e5⟩ := mm1_blockIdx t
  show (cfg1.win 2).cut (grid1.coords t) ((dat1 (F := Ideal) V c).after 2 t) = _
  rw [after1_2]
  funext j
  obtain ⟨p, hp⟩ : ∃ p : Fin 1024, p.val = (j 0).val := ⟨⟨(j 0).val, (j 0).isLt⟩, rfl⟩
  obtain ⟨q, hq⟩ : ∃ q : Fin 128, q.val = (j 1).val := ⟨⟨(j 1).val, (j 1).isLt⟩, rfl⟩
  obtain ⟨r, hr⟩ : ∃ r : Fin 8192, r.val = 1024 * ((t.val - 3) / 4) + p.val :=
    ⟨⟨1024 * ((t.val - 3) / 4) + p.val, by have := p.isLt; omega⟩, rfl⟩
  have hj : ((cfg1.win 2).xinj (grid1.coords t) j : S1024x128.Idx) = ix2 p q := funext fun a => Fin.ext (by
    match a with
    | ⟨0, _⟩ => exact hp.symm
    | ⟨1, _⟩ => exact hq.symm)
  refine (congrArg (accAt1 V c t.val t.isLt) hj).trans ?_
  rw [View.read_apply]
  show _ = ∑ k : Fin 8192, mm1_L V c (ix2 (Cert.Spec.row (((cfg1.win 2).blk t).view.emb j)) k)
      * mm1_X V c (ix2 k (Cert.Spec.col (((cfg1.win 2).blk t).view.emb j)))
  have hrow : Cert.Spec.row (((cfg1.win 2).blk t).view.emb j) = r := Fin.ext (by
    show win1_2.index t (0 : Fin 2) * 1024 + 1 * (j 0).val = r.val
    rw [e4, hr, hp]; omega)
  have hcol : Cert.Spec.col (((cfg1.win 2).blk t).view.emb j) = q := Fin.ext (by
    show win1_2.index t (1 : Fin 2) * 128 + 1 * (j 1).val = q.val
    rw [e5, hq]; omega)
  rw [hrow, hcol]
  refine Eq.trans ?_ (sum_eq_four_stretches' (mm1_terms V c r q)).symm
  rw [mm1_acc_of_eq V c t.val (t.val - 3 + 3) (by omega) t.isLt (by omega)]
  exact mm1_acc_last V c (t.val - 3) (by omega) (by omega) p q r hr

/-- An index of the result is in point t's block when each coordinate is in the block's range on its axis. -/
theorem mm1_mem_blk (t : Fin cfg1.N) (i : S8192x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole main_v1).slice (win1_2.rect t)).set ↔ _
  rw [View.set_slice_whole, Rect.mem_set_unit]
  exact Iff.rfl

/-- Row r of the result lies in the block written back at the last point of block row r / 1024. -/
theorem mm1_cover (i : S8192x128.Idx) :
    ∃ t : Fin cfg1.N, (cfg1.win 2).flush t = true ∧ i ∈ ((cfg1.win 2).blk t).view.set := by
  have hN : cfg1.N = 32 := N_1
  have hi0 : (i 0).val < 8192 := (i 0).isLt
  have hi1 : (i 1).val < 128 := (i 1).isLt
  obtain ⟨t, ht⟩ : ∃ t : Fin cfg1.N, t.val = 4 * ((i 0).val / 1024) + 3 := ⟨⟨4 * ((i 0).val / 1024) + 3, by omega⟩, rfl⟩
  obtain ⟨-, -, -, -, e4, e5⟩ := mm1_blockIdx t
  refine ⟨t, (flush1_2 t).mpr (by omega), ?_⟩
  rw [mm1_mem_blk]
  intro a
  match a with
  | ⟨0, _⟩ =>
    show win1_2.index t (0 : Fin 2) * 1024 ≤ (i 0).val ∧ (i 0).val < win1_2.index t (0 : Fin 2) * 1024 + 1024
    rw [e4]; omega
  | ⟨1, _⟩ =>
    show win1_2.index t (1 : Fin 2) * 128 ≤ (i 1).val ∧ (i 1).val < win1_2.index t (1 : Fin 2) * 128 + 128
    rw [e5]; omega

/-- The result array ends holding the whole product. -/
theorem final1 (V : (c : Dev nD) → (b : Ref sig .tc) → Buf (Elt Ideal) ((c : Thread nD τ).loc b)) (c : Dev nD) :
    (dat1 (F := Ideal) V c).arrAt 2 cfg1.N = Cert.Spec.lmul (V c main_arg1) (V c main_v0) :=
  (dat1 (F := Ideal) V c).arrAt_eq_of_cover 2 (Cert.Spec.lmul (V c main_arg1) (V c main_v0))
    (fun t hf => mm1_flushed_eq V c t hf) mm1_cover

end Cert.KernelIdeal.Hand

end
-- ==== Proof.KernelIdeal.Combine2Value.lean ====
/-
  What the combining kernel leaves in its result array, over the extended reals: row block by row block,
  x · A0 + T1 · A1 + (2 · LT1 − x) · A2, each product a sum over the 128 columns of the row; a row block of a
  product is the product of the row block.
-/
import proofs.«108918_j70763881168941_1_alg».proof.Proof.KernelIdeal.Combine2Data
import proofs.«108918_j70763881168941_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

open Idealize.ShloMosaic.ValueIdx

/-! ## The block product at an index -/

/-- The left operand of the block product is read at the output's row … -/
theorem lhs_combProd_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … and the summation index as its column; -/
theorem lhs_combProd_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- the right operand at the summation index as its row … -/
theorem rhs_combProd_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and the output's column. -/
theorem rhs_combProd_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A (1024 × 128) block times a (128 × 128) matrix, accumulated into zero, at row p and column q:
    the sum over the 128 inner indices of the products. -/
theorem combProd_apply {φ₁ φ₂ : FTy} (a : FVec Ideal S1024x128 φ₁) (b : FVec Ideal S128x128 φ₂) (p : Fin 1024) (q : Fin 128) :
    matmul dot_S1024x128_S128x128_S1024x128_1_0_0_1_n_n none a b (constant (F := Ideal) S1024x128 .f32 0x00000000#32) (ix2 p q)
      = ∑ k : Fin 128, a (ix2 p k) * b (ix2 k q) := by
  refine (Ideal.matmul_constant_zero_apply dot_S1024x128_S128x128_S1024x128_1_0_0_1_n_n none a b (ix2 p q)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact lhs_combProd_0 _ _
    | ⟨1, _⟩ => exact (lhs_combProd_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (rhs_combProd_0 _ _).trans hk
    | ⟨1, _⟩ => exact rhs_combProd_1 _ _)
  rw [el, er]

/-! ## The body's payload at an index -/

/-- What the body stores, at row p and column q of the block, from the six blocks it loads: the three products summed,
    the third of the second-order term 2 · LT1 − x. -/
theorem combPayload_apply (x0 x1 x3 : Vec Ideal S1024x128 .f32) (a0 a1 a2 : Vec Ideal S128x128 .f32) (p : Fin 1024) (q : Fin 128) :
    k2_pay1 x0 x1 x3 a0 a1 a2 (ix2 p q)
      = ((∑ k : Fin 128, x0 (ix2 p k) * a0 (ix2 k q)) + ∑ k : Fin 128, x1 (ix2 p k) * a1 (ix2 k q))
        + ∑ k : Fin 128, (Cert.Spec.two * x3 (ix2 p k) - x0 (ix2 p k)) * a2 (ix2 k q) := by
  unfold k2_pay1
  simp only [shapeCast_self]
  rw [addf_apply, addf_apply, combProd_apply, combProd_apply, combProd_apply]
  rfl

/-! ## From blocks to the array -/

/-- The index maps over the eight grid points: the result's block and the three row-block operands' blocks sit
    at block row t and block column 0; the three weight matrices are their arrays' one block. -/
theorem comb_index_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of block row t is row t · 1024 + p of the array. -/
theorem comb_row_lt (t : Fin cfg2.N) (p : Fin 1024) : t.val * 1024 + p.val < 8192 := by
  have ht : t.val < 8 := t.isLt
  have hp := p.isLt
  omega

variable (V : (c : Dev nD) → (b : Ref sig .tc) → Buf (Elt Ideal) ((c : Thread nD τ).loc b))

/-- The block of x at point t, at row p and column k, is x at row t · 1024 + p. -/
theorem comb_xblk_apply (c : Dev nD) (t : Fin cfg2.N) (p : Fin 1024) (k : Fin 128) :
    iblk2 V c 0 t (ix2 p k) = V c main_arg0 (ix2 (⟨t.val * 1024 + p.val, comb_row_lt t p⟩ : Fin 8192) k) := by
  obtain ⟨e60, e61, e00, e01, e10, e11, e20, e21, e30, e31, e40, e41, e50, e51⟩ := comb_index_facts t
  show V c main_arg0 (((cfg2.win 0).blk t).view.emb (ix2 p k)) = _
  refine congrArg (V c main_arg0) (funext fun a => Fin.ext ?_)
  match a with
  | ⟨0, _⟩ => show win2_0.index t (0 : Fin 2) * 1024 + 1 * p.val = t.val * 1024 + p.val; omega
  | ⟨1, _⟩ => show win2_0.index t (1 : Fin 2) * 128 + 1 * k.val = k.val; omega

/-- The block of T1 at point t, at row p and column k, is T1 at row t · 1024 + p. -/
theorem comb_t1blk_apply (c : Dev nD) (t : Fin cfg2.N) (p : Fin 1024) (k : Fin 128) :
    iblk2 V c 1 t (ix2 p k) = V c main_v0 (ix2 (⟨t.val * 1024 + p.val, comb_row_lt t p⟩ : Fin 8192) k) := by
  obtain ⟨e60, e61, e00, e01, e10, e11, e20, e21, e30, e31, e40, e41, e50, e51⟩ := comb_index_facts t
  show V c main_v0 (((cfg2.win 1).blk t).view.emb (ix2 p k)) = _
  refine congrArg (V c main_v0) (funext fun a => Fin.ext ?_)
  match a with
  | ⟨0, _⟩ => show win2_1.index t (0 : Fin 2) * 1024 + 1 * p.val = t.val * 1024 + p.val; omega
  | ⟨1, _⟩ => show win2_1.index t (1 : Fin 2) * 128 + 1 * k.val = k.val; omega

/-- The block of LT1 at point t, at row p and column k, is LT1 at row t · 1024 + p. -/
theorem comb_lt1blk_apply (c : Dev nD) (t : Fin cfg2.N) (p : Fin 1024) (k : Fin 128) :
    iblk2 V c 2 t (ix2 p k) = V c main_v1 (ix2 (⟨t.val * 1024 + p.val, comb_row_lt t p⟩ : Fin 8192) k) := by
  obtain ⟨e60, e61, e00, e01, e10, e11, e20, e21, e30, e31, e40, e41, e50, e51⟩ := comb_index_facts t
  show V c main_v1 (((cfg2.win 2).blk t).view.emb (ix2 p k)) = _
  refine congrArg (V c main_v1) (funext fun a => Fin.ext ?_)
  match a with
  | ⟨0, _⟩ => show win2_2.index t (0 : Fin 2) * 1024 + 1 * p.val = t.val * 1024 + p.val; omega
  | ⟨1, _⟩ => show win2_2.index t (1 : Fin 2) * 128 + 1 * k.val = k.val; omega

/-- The first weight matrix is staged whole: its block at any point is the matrix. -/
theorem comb_a0blk_apply (c : Dev nD) (t : Fin cfg2.N) (k q : Fin 128) :
    iblk2 V c 3 t (ix2 k q) = V c main_v4 (ix2 k q) := by
  obtain ⟨e60, e61, e00, e01, e10, e11, e20, e21, e30, e31, e40, e41, e50, e51⟩ := comb_index_facts t
  show V c main_v4 (((cfg2.win 3).blk t).view.emb (ix2 k q)) = _
  refine congrArg (V c main_v4) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- So is the second … -/
theorem comb_a1blk_apply (c : Dev nD) (t : Fin cfg2.N) (k q : Fin 128) :
    iblk2 V c 4 t (ix2 k q) = V c main_v6 (ix2 k q) := by
  obtain ⟨e60, e61, e00, e01, e10, e11, e20, e21, e30, e31, e40, e41, e50, e51⟩ := comb_index_facts t
  show V c main_v6 (((cfg2.win 4).blk t).view.emb (ix2 k q)) = _
  refine congrArg (V c main_v6) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- … and the third. -/
theorem comb_a2blk_apply (c : Dev nD) (t : Fin cfg2.N) (k q : Fin 128) :
    iblk2 V c 5 t (ix2 k q) = V c main_v8 (ix2 k q) := by
  obtain ⟨e60, e61, e00, e01, e10, e11, e20, e21, e30, e31, e40, e41, e50, e51⟩ := comb_index_facts t
  show V c main_v8 (((cfg2.win 5).blk t).view.emb (ix2 k q)) = _
  refine congrArg (V c main_v8) (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

/-- Row p, column q of the result's block at point t sits at row t · 1024 + p, column q of the result. -/
theorem comb_outblk_emb (t : Fin cfg2.N) (p : Fin 1024) (q : Fin 128) :
    ((cfg2.win 6).blk t).view.emb (ix2 p q) = ix2 (⟨t.val * 1024 + p.val, comb_row_lt t p⟩ : Fin 8192) q := by
  obtain ⟨e60, e61, e00, e01, e10, e11, e20, e21, e30, e31, e40, e41, e50, e51⟩ := comb_index_facts t
  refine funext fun a => Fin.ext ?_
  match a with
  | ⟨0, _⟩ => show win2_6.index t (0 : Fin 2) * 1024 + 1 * p.val = t.val * 1024 + p.val; omega
  | ⟨1, _⟩ => show win2_6.index t (1 : Fin 2) * 128 + 1 * q.val = q.val; omega

/-- WHAT POINT t WRITES BACK is block t of the combination of the six arrays as the region finds them: the row block of
    each product is the product of the row block. -/
theorem comb_flushed_eq (c : Dev nD) (t : Fin cfg2.N) :
    (dat2 (F := Ideal) V c).flushed 6 t
      = ((cfg2.win 6).blk t).view.read (Elt Ideal)
          (Cert.Spec.comb (V c main_arg0) (V c main_v0) (V c main_v1) (V c main_v4) (V c main_v6) (V c main_v8)) := by
  show (cfg2.win 6).cut (grid2.coords t) ((dat2 V c).after 6 t) = _
  rw [after2_6]
  funext j
  obtain ⟨p, q, rfl⟩ : ∃ (p : Fin 1024) (q : Fin 128), j = ix2 p q := ⟨j 0, j 1, eq_ix2 j⟩
  have hx : (cfg2.win 6).xinj (grid2.coords t) (ix2 p q) = ix2 p q :=
    funext fun a => match a with | ⟨0, _⟩ => rfl | ⟨1, _⟩ => rfl
  show k2_pay1 (iblk2 V c 0 t) (iblk2 V c 1 t) (iblk2 V c 2 t) (iblk2 V c 3 t) (iblk2 V c 4 t) (iblk2 V c 5 t) ((cfg2.win 6).xinj (grid2.coords t) (ix2 p q))
    = Cert.Spec.comb (V c main_arg0) (V c main_v0) (V c main_v1) (V c main_v4) (V c main_v6) (V c main_v8) (((cfg2.win 6).blk t).view.emb (ix2 p q))
  refine (congrArg (k2_pay1 (iblk2 V c 0 t) (iblk2 V c 1 t) (iblk2 V c 2 t) (iblk2 V c 3 t) (iblk2 V c 4 t) (iblk2 V c 5 t)) hx).trans ?_
  refine (combPayload_apply _ _ _ _ _ _ p q).trans ?_
  refine Eq.trans ?_ (congrArg (Cert.Spec.comb (V c main_arg0) (V c main_v0) (V c main_v1) (V c main_v4) (V c main_v6) (V c main_v8)) (comb_outblk_emb t p q)).symm
  unfold Cert.Spec.comb Cert.Spec.rmul Cert.Spec.cheb2
  refine congrArg₂ (· + ·) (congrArg₂ (· + ·) (Finset.sum_congr rfl fun k _ => ?_) (Finset.sum_congr rfl fun k _ => ?_)) (Finset.sum_congr rfl fun k _ => ?_)
  · rw [comb_xblk_apply, comb_a0blk_apply]
  · rw [comb_t1blk_apply, comb_a1blk_apply]
  · rw [comb_lt1blk_apply, comb_xblk_apply, comb_a2blk_apply]

/-- An index of the result is in point t's block iff each coordinate is in the block's range on its axis. -/
theorem comb_mem_outblk (t : Fin cfg2.N) (i : S8192x128.Idx) :
    i ∈ ((cfg2.win 6).blk t).view.set ↔ ∀ a : Fin 2, win2_6.index t a * S1024x128.size a ≤ (i a).val ∧ (i a).val < win2_6.index t a * S1024x128.size a + S1024x128.size a := by
  show i ∈ ((View.whole main_v9).slice (win2_6.rect t)).set ↔ _
  rw [View.set_slice_whole, Rect.mem_set_unit]
  exact Iff.rfl

/-- Every row of the result lies in one point's block: row r in that of point r / 1024. -/
theorem comb_outblk_cover (i : S8192x128.Idx) :
    ∃ t : Fin cfg2.N, (cfg2.win 6).flush t = true ∧ i ∈ ((cfg2.win 6).blk t).view.set := by
  have hi0 : (i 0).val < 8192 := (i 0).isLt
  have hi1 : (i 1).val < 128 := (i 1).isLt
  refine ⟨⟨(i 0).val / 1024, by show (i 0).val / 1024 < 8; omega⟩, flush2_6 _, ?_⟩
  obtain ⟨e60, e61, -⟩ := comb_index_facts ⟨(i 0).val / 1024, by show (i 0).val / 1024 < 8; omega⟩
  rw [comb_mem_outblk]
  intro a
  match a with
  | ⟨0, _⟩ =>
    show win2_6.index ⟨(i 0).val / 1024, _⟩ (0 : Fin 2) * 1024 ≤ (i 0).val ∧ (i 0).val < win2_6.index ⟨(i 0).val / 1024, _⟩ (0 : Fin 2) * 1024 + 1024
    rw [e60]; show (i 0).val / 1024 * 1024 ≤ (i 0).val ∧ (i 0).val < (i 0).val / 1024 * 1024 + 1024; omega
  | ⟨1, _⟩ =>
    show win2_6.index ⟨(i 0).val / 1024, _⟩ (1 : Fin 2) * 128 ≤ (i 1).val ∧ (i 1).val < win2_6.index ⟨(i 0).val / 1024, _⟩ (1 : Fin 2) * 128 + 128
    rw [e61]; omega

theorem final2 (V : (c : Dev nD) → (b : Ref sig .tc) → Buf (Elt Ideal) ((c : Thread nD τ).loc b)) (c : Dev nD) :
    (dat2 (F := Ideal) V c).arrAt 6 cfg2.N
      = Cert.Spec.comb (V c main_arg0) (V c main_v0) (V c main_v1) (V c main_v4) (V c main_v6) (V c main_v8) :=
  (dat2 (F := Ideal) V c).arrAt_eq_of_cover 6 _ (fun t _ => comb_flushed_eq V c t) comb_outblk_cover

end Cert.KernelIdeal.Hand

end
-- ==== Proof.KernelIdeal.HostValue.lean ====
/-
  The host operations between the second and the third pallas_call: the weights transposed in their last two
  axes, then each of the three slices taken and reshaped to (128 × 128).  Read at an index, slice n is
  (W[n]ᵀ)[k, j] = W[n, j, k].
-/
import proofs.«108918_j70763881168941_1_alg».proof.Proof.Gen.KernelIdeal.Launch
import proofs.«108918_j70763881168941_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- Slice `n` of the weights transposed in their last two axes, reshaped to (128 × 128), read at an index:
    the reshape sends (k, j) to (0, k, j) (same row-major position), the slice to (n, k, j), and the
    transposition exchanges the last two coordinates, (n, j, k). -/
theorem sliceT_apply (n : Nat) (hn : n < 3) (x : S3x128x128.Idx → EReal)
    (hs : S3x128x128.Slices ![n, 0, 0] S1x128x128) (a : S128x128.Idx) :
    shapeCast S128x128 (extractStridedSlice S1x128x128 ![n, 0, 0]
        (transpose S3x128x128 [0, 2, 1] x transposes_S3x128x128_S3x128x128_0_2_1) hs) shapeCasts_S1x128x128_S128x128 a
      = x (ValueIdx.ix3 ⟨n, hn⟩ ⟨(a 1).val, (a 1).isLt⟩ ⟨(a 0).val, (a 0).isLt⟩) := by
  have h0 : (a 0).val < 128 := (a 0).isLt
  have h1 : (a 1).val < 128 := (a 1).isLt
  refine (shapeCast_apply _ shapeCasts_S1x128x128_S128x128 a
    (ValueIdx.ix3 ⟨0, Nat.one_pos⟩ ⟨(a 0).val, h0⟩ ⟨(a 1).val, h1⟩)
    (by rewrite [Shape.rowMajor_val_three, Shape.rowMajor_val_two]
        show (0 * 128 + (a 0).val) * 128 + (a 1).val = (a 0).val * 128 + (a 1).val
        omega)).trans ?_
  refine (extractStridedSlice_apply ![n, 0, 0] _ hs _
    (ValueIdx.ix3 ⟨n, hn⟩ ⟨(a 0).val, h0⟩ ⟨(a 1).val, h1⟩) (fun d => match d with
      | ⟨0, _⟩ => by show n = n + 0; omega
      | ⟨1, _⟩ => by show (a 0).val = 0 + (a 0).val; omega
      | ⟨2, _⟩ => by show (a 1).val = 0 + (a 1).val; omega)).trans ?_
  exact transpose_apply [0, 2, 1] x transposes_S3x128x128_S3x128x128_0_2_1 _
    (ValueIdx.ix3 ⟨n, hn⟩ ⟨(a 1).val, h1⟩ ⟨(a 0).val, h0⟩) (fun b => match b with
      | ⟨0, _⟩ => rfl
      | ⟨1, _⟩ => rfl
      | ⟨2, _⟩ => rfl)

/-- What the host operations leave in the first reshaped slice: the operations' own term. -/
theorem hostOps2_v4_term (W : Valuation τ sig (Elt Ideal)) :
    (StableHlo.after (hostOps2 (F := Ideal)) W (Proc.devRef .tc main_v4) : S128x128.Idx → EReal)
      = shapeCast S128x128 (extractStridedSlice S1x128x128 ![0, 0, 0]
          (transpose S3x128x128 [0, 2, 1] (W (Proc.devRef .tc main_arg2)) transposes_S3x128x128_S3x128x128_0_2_1)
          slices_S3x128x128_S1x128x128_0_0_0) shapeCasts_S1x128x128_S128x128 := by
  show StableHlo.after hostOps2 W (Proc.devRef .tc main_v4) = _
  after_results
  rfl
theorem hostOps2_v6_term (W : Valuation τ sig (Elt Ideal)) :
    (StableHlo.after (hostOps2 (F := Ideal)) W (Proc.devRef .tc main_v6) : S128x128.Idx → EReal)
      = shapeCast S128x128 (extractStridedSlice S1x128x128 ![1, 0, 0]
          (transpose S3x128x128 [0, 2, 1] (W (Proc.devRef .tc main_arg2)) transposes_S3x128x128_S3x128x128_0_2_1)
          slices_S3x128x128_S1x128x128_1_0_0) shapeCasts_S1x128x128_S128x128 := by
  show StableHlo.after hostOps2 W (Proc.devRef .tc main_v6) = _
  after_results
  rfl
theorem hostOps2_v8_term (W : Valuation τ sig (Elt Ideal)) :
    (StableHlo.after (hostOps2 (F := Ideal)) W (Proc.devRef .tc main_v8) : S128x128.Idx → EReal)
      = shapeCast S128x128 (extractStridedSlice S1x128x128 ![2, 0, 0]
          (transpose S3x128x128 [0, 2, 1] (W (Proc.devRef .tc main_arg2)) transposes_S3x128x128_S3x128x128_0_2_1)
          slices_S3x128x128_S1x128x128_2_0_0) shapeCasts_S1x128x128_S128x128 := by
  show StableHlo.after hostOps2 W (Proc.devRef .tc main_v8) = _
  after_results
  rfl

theorem hostOps2_v4 (W : Valuation τ sig (Elt Ideal)) :
    StableHlo.after (hostOps2 (F := Ideal)) W (Proc.devRef .tc main_v4) = Cert.Spec.wT 0 (W (Proc.devRef .tc main_arg2)) := by
  refine (hostOps2_v4_term W).trans (funext fun a => ?_)
  exact sliceT_apply 0 (by omega) _ slices_S3x128x128_S1x128x128_0_0_0 a
theorem hostOps2_v6 (W : Valuation τ sig (Elt Ideal)) :
    StableHlo.after (hostOps2 (F := Ideal)) W (Proc.devRef .tc main_v6) = Cert.Spec.wT 1 (W (Proc.devRef .tc main_arg2)) := by
  refine (hostOps2_v6_term W).trans (funext fun a => ?_)
  exact sliceT_apply 1 (by omega) _ slices_S3x128x128_S1x128x128_1_0_0 a
theorem hostOps2_v8 (W : Valuation τ sig (Elt Ideal)) :
    StableHlo.after (hostOps2 (F := Ideal)) W (Proc.devRef .tc main_v8) = Cert.Spec.wT 2 (W (Proc.devRef .tc main_arg2)) := by
  refine (hostOps2_v8_term W).trans (funext fun a => ?_)
  exact sliceT_apply 2 (by omega) _ slices_S3x128x128_S1x128x128_2_0_0 a

end Cert.KernelIdeal.Hand

end
-- ==== Proof.KernelIdeal.Value.lean ====
/-
  The idealized kernel program's result over the extended reals is the specification.

  The combining kernel's result is the combination of x, of the first product L·x and of the second product
  L·(L·x) with the three transposed weight slices; the first product is what the first matrix-product kernel
  left, the second what the second left when entered with the first as its right operand; the slices are what
  the host stretch wrote.  Each of these is read back through the fold of buffer contents to the arguments.
-/
import proofs.«108918_j70763881168941_1_alg».proof.Proof.KernelIdeal.Results
import proofs.«108918_j70763881168941_1_alg».proof.Proof.KernelIdeal.Matmul0Value
import proofs.«108918_j70763881168941_1_alg».proof.Proof.KernelIdeal.Matmul1Value
import proofs.«108918_j70763881168941_1_alg».proof.Proof.KernelIdeal.Combine2Value
import proofs.«108918_j70763881168941_1_alg».proof.Proof.KernelIdeal.HostValue
import proofs.«108918_j70763881168941_1_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first product, as the third kernel finds it. -/
theorem first_product (c : Dev nD) :
    W3 m c (Proc.devRef .tc main_v0)
      = Cert.Spec.lmul (m ((c : Thread nD τ).loc main_arg1)) (m ((c : Thread nD τ).loc main_arg0)) :=
  (W3_main_v0' m c).trans (final0 (V0 m) c)

/-- The second product: the operator applied to the first. -/
theorem second_product (c : Dev nD) :
    W3 m c (Proc.devRef .tc main_v1)
      = Cert.Spec.lmul (m ((c : Thread nD τ).loc main_arg1))
          (Cert.Spec.lmul (m ((c : Thread nD τ).loc main_arg1)) (m ((c : Thread nD τ).loc main_arg0))) := by
  refine (W3_main_v1' m c).trans ((final1 (V1 m) c).trans ?_)
  have e1 : V1 m c main_arg1 = m ((c : Thread nD τ).loc main_arg1) := W1_main_arg1 m c
  have e2 : V1 m c main_v0 = Cert.Spec.lmul (m ((c : Thread nD τ).loc main_arg1)) (m ((c : Thread nD τ).loc main_arg0)) :=
    (W1_arr m c 2).trans (final0 (V0 m) c)
  rw [e1, e2]

/-- The three weight slices, transposed, as the host stretch wrote them. -/
theorem slice_v4 (c : Dev nD) : W3 m c (Proc.devRef .tc main_v4) = Cert.Spec.wT 0 (m ((c : Thread nD τ).loc main_arg2)) :=
  (hostOps2_v4 (W2 m c)).trans (congrArg (Cert.Spec.wT 0) (W2_main_arg2 m c))
theorem slice_v6 (c : Dev nD) : W3 m c (Proc.devRef .tc main_v6) = Cert.Spec.wT 1 (m ((c : Thread nD τ).loc main_arg2)) :=
  (hostOps2_v6 (W2 m c)).trans (congrArg (Cert.Spec.wT 1) (W2_main_arg2 m c))
theorem slice_v8 (c : Dev nD) : W3 m c (Proc.devRef .tc main_v8) = Cert.Spec.wT 2 (m ((c : Thread nD τ).loc main_arg2)) :=
  (hostOps2_v8 (W2 m c)).trans (congrArg (Cert.Spec.wT 2) (W2_main_arg2 m c))

/-- The result array at the end of the run is the specification of the three arguments. -/
theorem result_value (c : Dev nD) :
    W4 m c (Proc.devRef .tc main_v9)
      = Cert.Spec.G (m ((c : Thread nD τ).loc main_arg0)) (m ((c : Thread nD τ).loc main_arg1)) (m ((c : Thread nD τ).loc main_arg2)) := by
  rw [W4_main_v9, final2, Cert.Spec.G_eq_comb]
  have e0 : V3 m c main_arg0 = m ((c : Thread nD τ).loc main_arg0) := (W3_main_arg0 m c).trans (W2_main_arg0 m c)
  have e1 : V3 m c main_v0 = _ := first_product m c
  have e2 : V3 m c main_v1 = _ := second_product m c
  have e4 : V3 m c main_v4 = _ := slice_v4 m c
  have e6 : V3 m c main_v6 = _ := slice_v6 m c
  have e8 : V3 m c main_v8 = _ := slice_v8 m c
  rw [e0, e1, e2, e4, e6, e8]

/-- The idealized kernel program runs to the end with its result at the specification and its arguments unchanged. -/
theorem run_value : θ_run defs (onTc (τ := τ) (main (F := Ideal))) ⟨m, fun _ => 0, ρ⟩ (fun r => ∀ c : Dev nD,
      r.2.mem ((c.tc : Thread nD τ).loc main_v9)
        = Cert.Spec.G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v9 (by decide))).trans (result_value m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.RefStages.lean ====
/-
  The reference program's result is the specification: its stages read at an index are the plain sums of
  the specification — the square operator applied once and twice, the recurrence's pointwise step, and one
  (128-term) product per order with a weight slice transposed.
-/
import proofs.«108918_j70763881168941_1_alg».proof.Proof.Gen.ReferenceIdeal.Read
import proofs.«108918_j70763881168941_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The operator applied to a tall matrix: a 8192-term product read at an index is the specification's sum. -/
theorem lmul_read (L : (⟨S8192x8192, .f32⟩ : BufTy).Contents (Elt Ideal)) (R : (⟨S8192x128, .f32⟩ : BufTy).Contents (Elt Ideal))
    (i : S8192x128.Idx) :
    (∑ k : Fin 8192, L (Read.lidx_main_v0 i k) * R (Read.ridx_main_v0 i k)) = Spec.lmul L R i := by
  unfold Spec.lmul
  refine Finset.sum_congr rfl fun k _ => ?_
  have el : Read.lidx_main_v0 i k = ix2 (Spec.row i) k := funext fun a => by
    match a with
    | ⟨0, _⟩ => rfl
    | ⟨1, _⟩ => rfl
  have er : Read.ridx_main_v0 i k = ix2 k (Spec.col i) := funext fun a => by
    match a with
    | ⟨0, _⟩ => rfl
    | ⟨1, _⟩ => rfl
  rw [el, er]

/-- A tall matrix times a square (128 × 128) one: the 128-term product read at an index is the specification's sum. -/
theorem rmul_read (T : (⟨S8192x128, .f32⟩ : BufTy).Contents (Elt Ideal)) (A : (⟨S128x128, .f32⟩ : BufTy).Contents (Elt Ideal))
    (i : S8192x128.Idx) :
    (∑ k : Fin 128, T (Read.lidx_main_v4 i k) * A (Read.ridx_main_v4 i k)) = Spec.rmul T A i := by
  unfold Spec.rmul
  refine Finset.sum_congr rfl fun k _ => ?_
  have el : Read.lidx_main_v4 i k = ix2 (Spec.row i) k := funext fun a => by
    match a with
    | ⟨0, _⟩ => rfl
    | ⟨1, _⟩ => rfl
  have er : Read.ridx_main_v4 i k = ix2 k (Spec.col i) := funext fun a => by
    match a with
    | ⟨0, _⟩ => rfl
    | ⟨1, _⟩ => rfl
  rw [el, er]

/-- Stage 0 is the operator applied once. -/
theorem v0_eq (x0 : (⟨S8192x128, .f32⟩ : BufTy).Contents (Elt Ideal)) (x1 : (⟨S8192x8192, .f32⟩ : BufTy).Contents (Elt Ideal)) :
    Read.val_main_v0 (F := Ideal) x0 x1 = Spec.lmul x1 x0 := by
  funext i
  rw [Read.val_main_v0_apply]
  exact lmul_read x1 x0 i

/-- Stage 10 is the operator applied twice. -/
theorem v10_eq (x0 : (⟨S8192x128, .f32⟩ : BufTy).Contents (Elt Ideal)) (x1 : (⟨S8192x8192, .f32⟩ : BufTy).Contents (Elt Ideal)) :
    Read.val_main_v10 (F := Ideal) x0 x1 = Spec.lmul x1 (Spec.lmul x1 x0) := by
  funext i
  rw [Read.val_main_v10_apply, v0_eq]
  exact lmul_read x1 (Spec.lmul x1 x0) i

/-- Stage 13 is the recurrence's step: twice the second application less the input, pointwise. -/
theorem v13_eq (x0 : (⟨S8192x128, .f32⟩ : BufTy).Contents (Elt Ideal)) (x1 : (⟨S8192x8192, .f32⟩ : BufTy).Contents (Elt Ideal)) :
    Read.val_main_v13 (F := Ideal) x0 x1 = Spec.cheb2 x0 (Spec.lmul x1 (Spec.lmul x1 x0)) := by
  funext i
  rw [Read.val_main_v13_apply, Read.val_main_v12_apply, Read.val_main_v11_apply, Read.val_main_cst_apply, v10_eq]
  rfl

/-- The reshape of a [1, 128, 128] slice followed by the transpose reads the slice at (0, column, row). -/
theorem wslice_idx (i : S128x128.Idx) :
    Read.idx_main_v2 (Read.idx_main_v3 i) = ix3 (0 : Fin 1) (⟨(i 1).val, (i 1).isLt⟩ : Fin 128) (⟨(i 0).val, (i 0).isLt⟩ : Fin 128) := by
  have h0 : (i 0).val < 128 := (i 0).isLt
  have h1 : (i 1).val < 128 := (i 1).isLt
  funext a
  apply Fin.ext
  match a with
  | ⟨0, _⟩ => rfl
  | ⟨1, _⟩ => show ((i 1).val * 128 + (i 0).val) / 128 % 128 = (i 1).val; omega
  | ⟨2, _⟩ => show ((i 1).val * 128 + (i 0).val) % 128 = (i 0).val; omega

/-- Stage 3 is slice 0 of the weights, transposed. -/
theorem v3_eq (x2 : (⟨S3x128x128, .f32⟩ : BufTy).Contents (Elt Ideal)) :
    Read.val_main_v3 (F := Ideal) x2 = Spec.wT 0 x2 := by
  funext i
  rw [Read.val_main_v3_apply, Read.val_main_v2_apply, Read.val_main_v1_apply, wslice_idx]
  unfold Spec.wT
  congr 1
  funext a
  apply Fin.ext
  match a with
  | ⟨0, _⟩ => rfl
  | ⟨1, _⟩ => rfl
  | ⟨2, _⟩ => rfl

/-- Stage 7 is slice 1 of the weights, transposed. -/
theorem v7_eq (x2 : (⟨S3x128x128, .f32⟩ : BufTy).Contents (Elt Ideal)) :
    Read.val_main_v7 (F := Ideal) x2 = Spec.wT 1 x2 := by
  funext i
  rw [Read.val_main_v7_apply, Read.val_main_v6_apply, Read.val_main_v5_apply]
  show x2 (Read.idx_main_v5 (Read.idx_main_v2 (Read.idx_main_v3 i))) = _
  rw [wslice_idx]
  unfold Spec.wT
  congr 1
  funext a
  apply Fin.ext
  match a with
  | ⟨0, _⟩ => rfl
  | ⟨1, _⟩ => rfl
  | ⟨2, _⟩ => rfl

/-- Stage 16 is slice 2 of the weights, transposed. -/
theorem v16_eq (x2 : (⟨S3x128x128, .f32⟩ : BufTy).Contents (Elt Ideal)) :
    Read.val_main_v16 (F := Ideal) x2 = Spec.wT 2 x2 := by
  funext i
  rw [Read.val_main_v16_apply, Read.val_main_v15_apply, Read.val_main_v14_apply]
  show x2 (Read.idx_main_v14 (Read.idx_main_v2 (Read.idx_main_v3 i))) = _
  rw [wslice_idx]
  unfold Spec.wT
  congr 1
  funext a
  apply Fin.ext
  match a with
  | ⟨0, _⟩ => rfl
  | ⟨1, _⟩ => rfl
  | ⟨2, _⟩ => rfl

theorem result_eq (x0 : (⟨S8192x128, .f32⟩ : BufTy).Contents (Elt Ideal)) (x1 : (⟨S8192x8192, .f32⟩ : BufTy).Contents (Elt Ideal))
    (x2 : (⟨S3x128x128, .f32⟩ : BufTy).Contents (Elt Ideal)) :
    Cert.ReferenceIdeal.Read.val_main_v18 (F := Ideal) x0 x1 x2 = Cert.Spec.G x0 x1 x2 := by
  funext j
  rw [Spec.G_eq_comb, Read.val_main_v18_apply, Read.val_main_v9_apply, Read.val_main_v4_apply, Read.val_main_v8_apply,
    Read.val_main_v17_apply, v0_eq, v13_eq, v3_eq, v7_eq, v16_eq]
  unfold Spec.comb
  rw [← rmul_read x0 (Spec.wT 0 x2) j, ← rmul_read (Spec.lmul x1 x0) (Spec.wT 1 x2) j,
    ← rmul_read (Spec.cheb2 x0 (Spec.lmul x1 (Spec.lmul x1 x0))) (Spec.wT 2 x2) j]
  rfl

end Cert.ReferenceIdeal.RefValue

end
-- ==== Proof.lean ====
/-
  The certificate: the Pallas kernel program (two K-blocked matrix products L·x and L·(L·x), then one kernel
  combining x, L·x and 2·L·(L·x) − x with the three weight slices) against the jnp reference of the
  second-order Chebyshev graph convolution.

  Frames.  Both kernel programs (the word-level one and its idealization are the same text) run as three
  pipelined regions and one host stretch; each region's body is run point by point, the matrix-product
  kernels carrying their accumulator from point to point.  The reference is a straight line of host operations.

  Values.  Over the extended reals a change of float format is the identity, so the kernel computes, index by
  index, out[i, j] = (∑ₖ x[i,k]·W[0,j,k] + ∑ₖ (L·x)[i,k]·W[1,j,k]) + ∑ₖ (2·(L·L·x)[i,k] − x[i,k])·W[2,j,k],
  where a product with L is a sum over 8192 terms that the kernel forms as four partial sums of 2048 — equal by
  associativity and commutativity of addition alone, so the precondition (finite inputs) is never opened.  The
  reference computes the same sums in one piece each.  Nothing was rewritten by the idealization, so the
  preservation conjunct is trivial.
-/
import proofs.«108918_j70763881168941_1_alg».proof.Defs
import proofs.«108918_j70763881168941_1_alg».proof.Proof.Gen.Kernel
import proofs.«108918_j70763881168941_1_alg».proof.Proof.Gen.KernelIdeal
import proofs.«108918_j70763881168941_1_alg».proof.Proof.Gen.ReferenceIdeal
import proofs.«108918_j70763881168941_1_alg».proof.Proof.Gen.Pre_finite_inputs
import proofs.«108918_j70763881168941_1_alg».proof.Proof.Gen.ReferenceIdeal.Run
import proofs.«108918_j70763881168941_1_alg».proof.Proof.Kernel.Results
import proofs.«108918_j70763881168941_1_alg».proof.Proof.KernelIdeal.Value
import proofs.«108918_j70763881168941_1_alg».proof.Proof.RefStages

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the specification of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
